-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x128x256 : Shape := ⟨3, ![1024, 128, 256]⟩
abbrev S128 : Shape := ⟨1, ![128]⟩
abbrev S256x256 : Shape := ⟨2, ![256, 256]⟩
abbrev S256 : Shape := ⟨1, ![256]⟩
abbrev S1x768 : Shape := ⟨2, ![1, 768]⟩
abbrev S1 : Shape := ⟨1, ![1]⟩
abbrev S_ : Shape := ⟨0, ![]⟩

class Facts : Prop where
  bcast_S_S1024x128x256 : S_.BroadcastsInDim S1024x128x256 (![] : Fin 0 → Fin S1024x128x256.rank)
  reducesTo_S1024x128x256_S_d0_1_2 : S1024x128x256.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S1x768 : S_.BroadcastsInDim S1x768 (![] : Fin 0 → Fin S1x768.rank)
  reducesTo_S1x768_S_d0_1 : S1x768.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg15 : FVec F S1 .f32) (main_v63 : IVec S_ 1) (main_v67 : IVec S_ 1) : IVec S_ 1 :=
  let main_v68 : IVec S_ 1 := andi main_v63 main_v67
  let main_v69 : FVec F S1 .f32 := Host.absf main_arg15
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  main_v73

def fn_part3 {F : FTy → Type} [FloatOps F] (main_arg12 : FVec F S1x768 .f32) (main_arg13 : FVec F S1 .f32) (main_arg14 : FVec F S1x768 .f32) (main_arg15 : FVec F S1 .f32) (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  let main_v54 : FVec F S1x768 .f32 := Host.absf main_arg12
  let main_cst_20 : FVec F S_ .f32 := constant S_ .f32 0x7F800000#32
  let main_v55 : FVec F S1x768 .f32 := broadcastInDim S1x768 ![] bcast_S_S1x768 main_cst_20
  let main_v56 : IVec S1x768 1 := cmpf .olt main_v54 main_v55
  let main_c_21 : IVec S_ 1 := constantI S_ 1 1#1
  let main_v57 : IVec S_ 1 := (fun x v => Host.reduce IntOp.andi x v reducesTo_S1x768_S_d0_1 h_S_) main_v56 main_c_21
  let main_v58 : IVec S_ 1 := andi main_v53 main_v57
  let main_v59 : FVec F S1 .f32 := Host.absf main_arg13
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  let main_v64 : FVec F S1x768 .f32 := Host.absf main_arg14
  let main_cst_24 : FVec F S_ .f32 := constant S_ .f32 0x7F800000#32
  let main_v65 : FVec F S1x768 .f32 := broadcastInDim S1x768 ![] bcast_S_S1x768 main_cst_24
  let main_v66 : IVec S1x768 1 := cmpf .olt main_v64 main_v65
  let main_c_25 : IVec S_ 1 := constantI S_ 1 1#1
  let main_v67 : IVec S_ 1 := (fun x v => Host.reduce IntOp.andi x v reducesTo_S1x768_S_d0_1 h_S_) main_v66 main_c_25
  fn_part4 (F := F) main_arg15 main_v63 main_v67

def fn_part2 {F : FTy → Type} [FloatOps F] (main_arg8 : FVec F S256x256 .f32) (main_arg9 : FVec F S256 .f32) (main_arg10 : FVec F S1x768 .f32) (main_arg11 : FVec F S1 .f32) (main_arg12 : FVec F S1x768 .f32) (main_arg13 : FVec F S1 .f32) (main_arg14 : FVec F S1x768 .f32) (main_arg15 : FVec F S1 .f32) (main_v33 : IVec S_ 1) : IVec S_ 1 :=
  let main_v34 : FVec F S256x256 .f32 := Host.absf main_arg8
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S1x768 .f32 := Host.absf main_arg10
  let main_cst_16 : FVec F S_ .f32 := constant S_ .f32 0x7F800000#32
  let main_v45 : FVec F S1x768 .f32 := broadcastInDim S1x768 ![] bcast_S_S1x768 main_cst_16
  let main_v46 : IVec S1x768 1 := cmpf .olt main_v44 main_v45
  let main_c_17 : IVec S_ 1 := constantI S_ 1 1#1
  let main_v47 : IVec S_ 1 := (fun x v => Host.reduce IntOp.andi x v reducesTo_S1x768_S_d0_1 h_S_) main_v46 main_c_17
  let main_v48 : IVec S_ 1 := andi main_v43 main_v47
  let main_v49 : FVec F S1 .f32 := Host.absf main_arg11
  let main_cst_18 : FVec F S_ .f32 := constant S_ .f32 0x7F800000#32
  let main_v50 : FVec F S1 .f32 := broadcastInDim S1 ![] bcast_S_S1 main_cst_18
  fn_part3 (F := F) main_arg12 main_arg13 main_arg14 main_arg15 main_v48 main_v49 main_v50

def fn_part1 {F : FTy → Type} [FloatOps F] (main_arg5 : FVec F S256 .f32) (main_arg6 : FVec F S256x256 .f32) (main_arg7 : FVec F S256 .f32) (main_arg8 : FVec F S256x256 .f32) (main_arg9 : FVec F S256 .f32) (main_arg10 : FVec F S1x768 .f32) (main_arg11 : FVec F S1 .f32) (main_arg12 : FVec F S1x768 .f32) (main_arg13 : FVec F S1 .f32) (main_arg14 : FVec F S1x768 .f32) (main_arg15 : FVec F S1 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_arg10 main_arg11 main_arg12 main_arg13 main_arg14 main_arg15 main_v33

def fn {F : FTy → Type} [FloatOps F] (main_arg0 : FVec F S1024x128x256 .f32) (main_arg1 : FVec F S1024x128x256 .f32) (main_arg2 : FVec F S1024x128x256 .f32) (main_arg3 : IVec S128 32) (main_arg4 : FVec F S256x256 .f32) (main_arg5 : FVec F S256 .f32) (main_arg6 : FVec F S256x256 .f32) (main_arg7 : FVec F S256 .f32) (main_arg8 : FVec F S256x256 .f32) (main_arg9 : FVec F S256 .f32) (main_arg10 : FVec F S1x768 .f32) (main_arg11 : FVec F S1 .f32) (main_arg12 : FVec F S1x768 .f32) (main_arg13 : FVec F S1 .f32) (main_arg14 : FVec F S1x768 .f32) (main_arg15 : FVec F S1 .f32) : IVec S_ 1 :=
  let main_v0 : FVec F S1024x128x256 .f32 := Host.absf main_arg0
  let main_cst : FVec F S_ .f32 := constant S_ .f32 0x7F800000#32
  let main_v1 : FVec F S1024x128x256 .f32 := broadcastInDim S1024x128x256 ![] bcast_S_S1024x128x256 main_cst
  let main_v2 : IVec S1024x128x256 1 := cmpf .olt main_v0 main_v1
  let main_c : IVec S_ 1 := constantI S_ 1 1#1
  let main_v3 : IVec S_ 1 := (fun x v => Host.reduce IntOp.andi x v reducesTo_S1024x128x256_S_d0_1_2 h_S_) main_v2 main_c
  let main_v4 : FVec F S1024x128x256 .f32 := Host.absf main_arg1
  let main_cst_0 : FVec F S_ .f32 := constant S_ .f32 0x7F800000#32
  let main_v5 : FVec F S1024x128x256 .f32 := broadcastInDim S1024x128x256 ![] bcast_S_S1024x128x256 main_cst_0
  let main_v6 : IVec S1024x128x256 1 := cmpf .olt main_v4 main_v5
  let main_c_1 : IVec S_ 1 := constantI S_ 1 1#1
  let main_v7 : IVec S_ 1 := (fun x v => Host.reduce IntOp.andi x v reducesTo_S1024x128x256_S_d0_1_2 h_S_) main_v6 main_c_1
  let main_v8 : IVec S_ 1 := andi main_v3 main_v7
  let main_v9 : FVec F S1024x128x256 .f32 := Host.absf main_arg2
  let main_cst_2 : FVec F S_ .f32 := constant S_ .f32 0x7F800000#32
  let main_v10 : FVec F S1024x128x256 .f32 := broadcastInDim S1024x128x256 ![] bcast_S_S1024x128x256 main_cst_2
  let main_v11 : IVec S1024x128x256 1 := cmpf .olt main_v9 main_v10
  let main_c_3 : IVec S_ 1 := constantI S_ 1 1#1
  let main_v12 : IVec S_ 1 := (fun x v => Host.reduce IntOp.andi x v reducesTo_S1024x128x256_S_d0_1_2 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_arg6 main_arg7 main_arg8 main_arg9 main_arg10 main_arg11 main_arg12 main_arg13 main_arg14 main_arg15 main_v13 main_v16
-- ==== Kernel.lean ====
abbrev S1024x128x256 : Shape := ⟨3, ![1024, 128, 256]⟩
abbrev S128 : Shape := ⟨1, ![128]⟩
abbrev S256x256 : Shape := ⟨2, ![256, 256]⟩
abbrev S256 : Shape := ⟨1, ![256]⟩
abbrev S1x768 : Shape := ⟨2, ![1, 768]⟩
abbrev S1 : Shape := ⟨1, ![1]⟩
abbrev S128x1024x256 : Shape := ⟨3, ![128, 1024, 256]⟩
abbrev S131072x256 : Shape := ⟨2, ![131072, 256]⟩
abbrev S131072x768 : Shape := ⟨2, ![131072, 768]⟩
abbrev S1024x256 : Shape := ⟨2, ![1024, 256]⟩
abbrev S1024x768 : Shape := ⟨2, ![1024, 768]⟩
abbrev S1x256 : Shape := ⟨2, ![1, 256]⟩
abbrev S1024 : Shape := ⟨1, ![1024]⟩
abbrev S1024x1 : Shape := ⟨2, ![1024, 1]⟩
abbrev S1x1 : Shape := ⟨2, ![1, 1]⟩

abbrev nBuf : Space → Nat
  | .hbm => 26
  | .vmem => 20
  | .smem => 0
  | _ => 0

abbrev bufTy : (tb : Table) → Fin (tcTables nBuf tb) → BufTy
  | .hbm, ⟨0, _⟩ => ⟨S1024x128x256, .f32⟩
  | .hbm, ⟨1, _⟩ => ⟨S1024x128x256, .f32⟩
  | .hbm, ⟨2, _⟩ => ⟨S1024x128x256, .f32⟩
  | .hbm, ⟨3, _⟩ => ⟨S128, .i32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S1x768, .f32⟩
  | .hbm, ⟨11, _⟩ => ⟨S1, .f32⟩
  | .hbm, ⟨12, _⟩ => ⟨S1x768, .f32⟩
  | .hbm, ⟨13, _⟩ => ⟨S1, .f32⟩
  | .hbm, ⟨14, _⟩ => ⟨S1x768, .f32⟩
  | .hbm, ⟨15, _⟩ => ⟨S1, .f32⟩
  | .hbm, ⟨16, _⟩ => ⟨S128x1024x256, .f32⟩
  | .hbm, ⟨17, _⟩ => ⟨S131072x256, .f32⟩
  | .hbm, ⟨18, _⟩ => ⟨S128x1024x256, .f32⟩
  | .hbm, ⟨19, _⟩ => ⟨S131072x256, .f32⟩
  | .hbm, ⟨20, _⟩ => ⟨S128x1024x256, .f32⟩
  | .hbm, ⟨21, _⟩ => ⟨S131072x256, .f32⟩
  | .hbm, ⟨22, _⟩ => ⟨S256x256, .f32⟩
  | .hbm, ⟨23, _⟩ => ⟨S256x256, .f32⟩
  | .hbm, ⟨24, _⟩ => ⟨S256x256, .f32⟩
  | .hbm, ⟨25, _⟩ => ⟨S131072x768, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S256x256, .f32⟩
  | .local _ .vmem, ⟨7, _⟩ => ⟨S256, .f32⟩
  | .local _ .vmem, ⟨8, _⟩ => ⟨S256x256, .f32⟩
  | .local _ .vmem, ⟨9, _⟩ => ⟨S256, .f32⟩
  | .local _ .vmem, ⟨10, _⟩ => ⟨S256x256, .f32⟩
  | .local _ .vmem, ⟨11, _⟩ => ⟨S256, .f32⟩
  | .local _ .vmem, ⟨12, _⟩ => ⟨S1x768, .f32⟩
  | .local _ .vmem, ⟨13, _⟩ => ⟨S1, .f32⟩
  | .local _ .vmem, ⟨14, _⟩ => ⟨S1x768, .f32⟩
  | .local _ .vmem, ⟨15, _⟩ => ⟨S1, .f32⟩
  | .local _ .vmem, ⟨16, _⟩ => ⟨S1x768, .f32⟩
  | .local _ .vmem, ⟨17, _⟩ => ⟨S1, .f32⟩
  | .local _ .vmem, ⟨18, _⟩ => ⟨S1024x768, .f32⟩
  | .local _ .vmem, ⟨19, _⟩ => ⟨S1024x768, .f32⟩
  | _, _ => ⟨S1024x128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg15_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem15_1 : DmaSem sig := 19

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x768 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x768 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x768 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S1024x768 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

class Facts₀ : Prop where
  transposes_S1024x128x256_S128x1024x256_1_0_2 : S1024x128x256.Transposes [1, 0, 2] S128x1024x256
  shapeCasts_S128x1024x256_S131072x256 : S128x1024x256.ShapeCasts S131072x256
  transposes_S256x256_S256x256_1_0 : S256x256.Transposes [1, 0] S256x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256_S256_0 : ∀ a, (![0] : Fin 1 → Nat) a + S256.size a ≤ S256.size a
  h_S256 : 0 < S256.numel
  shapeCasts_S256_S1x256 : S256.ShapeCasts S1x256
  broadcasts_S1x256_S1024x256 : S1x256.Broadcasts S1024x256
  inb_S1x768_S1x768_0_0 : ∀ a, (![0, 0] : Fin 2 → Nat) a + S1x768.size a ≤ S1x768.size a
  h_S1x768 : 0 < S1x768.numel
  slices_S1x768_o0_0_S1x256 : S1x768.Slices ![0, 0] S1x256
  slices_S1x768_o0_256_S1x256 : S1x768.Slices ![0, 256] S1x256
  slices_S1x768_o0_512_S1x256 : S1x768.Slices ![0, 512] S1x256
  reduces_S1024x256_S1024 : S1024x256.Reduces [1] S1024
  shapeCasts_S1024_S1024x1 : S1024.ShapeCasts S1024x1
  inb_S1_S1_0 : ∀ a, (![0] : Fin 1 → Nat) a + S1.size a ≤ S1.size a
  h_S1 : 0 < S1.numel
  shapeCasts_S1_S1x1 : S1.ShapeCasts S1x1
  broadcasts_S1x1_S1024x1 : S1x1.Broadcasts S1024x1
  broadcasts_S1024x1_S1024x256 : S1024x1.Broadcasts S1024x256
  inb_S1024x768_S1024x256_0_0 : ∀ a, (![0, 0] : Fin 2 → Nat) a + S1024x256.size a ≤ S1024x768.size a
  inb_S1024x768_S1024x256_0_256 : ∀ a, (![0, 256] : Fin 2 → Nat) a + S1024x256.size a ≤ S1024x768.size a
  inb_S1024x768_S1024x256_0_512 : ∀ a, (![0, 512] : Fin 2 → Nat) a + S1024x256.size a ≤ S1024x768.size a
  dot_S1024x256_S256x256_S1024x256_1_0_0_1_n_n_wf : DotDims.WF S1024x256 S256x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S131072x256.size a
  hwx0_0 : ∀ i : grid0.Coords, EltTy.bits .f32 = 32 ∨ (Rect.block (s := S131072x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S131072x256.size a
  hwx0_1 : ∀ i : grid0.Coords, EltTy.bits .f32 = 32 ∨ (Rect.block (s := S131072x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S131072x256.size a
  hwx0_2 : ∀ i : grid0.Coords, EltTy.bits .f32 = 32 ∨ (Rect.block (s := S131072x256) S1024x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S256.size a
  hwx0_6 : ∀ i : grid0.Coords, EltTy.bits .f32 = 32 ∨ (Rect.block (s := S256) S256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x256.size a ≤ S256x256.size a
  hwx0_7 : ∀ i : grid0.Coords, EltTy.bits .f32 = 32 ∨ (Rect.block (s := S256x256) S256x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256.size a ≤ S256.size a
  hwx0_8 : ∀ i : grid0.Coords, EltTy.bits .f32 = 32 ∨ (Rect.block (s := S256) S256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x768.size a ≤ S1x768.size a
  hwx0_9 : ∀ i : grid0.Coords, EltTy.bits .f32 = 32 ∨ (Rect.block (s := S1x768) S1x768.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1.size a ≤ S1.size a
  hwx0_10 : ∀ i : grid0.Coords, EltTy.bits .f32 = 32 ∨ (Rect.block (s := S1) S1.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x768.size a ≤ S1x768.size a
  hwx0_11 : ∀ i : grid0.Coords, EltTy.bits .f32 = 32 ∨ (Rect.block (s := S1x768) S1x768.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1.size a ≤ S1.size a
  hwx0_12 : ∀ i : grid0.Coords, EltTy.bits .f32 = 32 ∨ (Rect.block (s := S1) S1.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x768.size a ≤ S1x768.size a
  hwx0_13 : ∀ i : grid0.Coords, EltTy.bits .f32 = 32 ∨ (Rect.block (s := S1x768) S1x768.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1.size a ≤ S1.size a
  hwx0_14 : ∀ i : grid0.Coords, EltTy.bits .f32 = 32 ∨ (Rect.block (s := S1) S1.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S1024x768.size a ≤ S131072x768.size a
  hwx0_15 : ∀ i : grid0.Coords, EltTy.bits .f32 = 32 ∨ (Rect.block (s := S131072x768) S1024x768.size (cc0_transform_15 i) (hinb0_15 i)).WholeWords (EltTy.packing .f32)

variable [Facts₀]

def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf

abbrev win0_0 : Pipeline.Window sig grid0 :=
  Pipeline.Window.ofSpec (Memref.whole main_v1) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1024x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S256x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg10) S1x768.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg11) S1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg12) S1x768.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg13) S1.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg14) S1x768.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg15) S1.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v9) S1024x768.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

class Facts : Prop extends Facts₀ where

variable [Facts]
-- ==== ReferenceIdeal.lean ====
abbrev S1024x128x256 : Shape := ⟨3, ![1024, 128, 256]⟩
abbrev S128 : Shape := ⟨1, ![128]⟩
abbrev S256x256 : Shape := ⟨2, ![256, 256]⟩
abbrev S256 : Shape := ⟨1, ![256]⟩
abbrev S1x768 : Shape := ⟨2, ![1, 768]⟩
abbrev S1 : Shape := ⟨1, ![1]⟩
abbrev S128x1024x256 : Shape := ⟨3, ![128, 1024, 256]⟩
abbrev S131072x256 : Shape := ⟨2, ![131072, 256]⟩
abbrev S1x256 : Shape := ⟨2, ![1, 256]⟩
abbrev S131072x768 : Shape := ⟨2, ![131072, 768]⟩
abbrev S768x1 : Shape := ⟨2, ![768, 1]⟩
abbrev S131072x1 : Shape := ⟨2, ![131072, 1]⟩
abbrev S1x1 : Shape := ⟨2, ![1, 1]⟩
abbrev S_ : Shape := ⟨0, ![]⟩

abbrev nBuf : Space → Nat
  | .hbm => 110
  | .vmem => 0
  | .smem => 0
  | _ => 0

abbrev bufTy : (tb : Table) → Fin (tcTables nBuf tb) → BufTy
  | .hbm, ⟨0, _⟩ => ⟨S1024x128x256, .f32⟩
  | .hbm, ⟨1, _⟩ => ⟨S1024x128x256, .f32⟩
  | .hbm, ⟨2, _⟩ => ⟨S1024x128x256, .f32⟩
  | .hbm, ⟨3, _⟩ => ⟨S128, .i32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S1x768, .f32⟩
  | .hbm, ⟨11, _⟩ => ⟨S1, .f32⟩
  | .hbm, ⟨12, _⟩ => ⟨S1x768, .f32⟩
  | .hbm, ⟨13, _⟩ => ⟨S1, .f32⟩
  | .hbm, ⟨14, _⟩ => ⟨S1x768, .f32⟩
  | .hbm, ⟨15, _⟩ => ⟨S1, .f32⟩
  | .hbm, ⟨16, _⟩ => ⟨S128x1024x256, .f32⟩
  | .hbm, ⟨17, _⟩ => ⟨S131072x256, .f32⟩
  | .hbm, ⟨18, _⟩ => ⟨S128x1024x256, .f32⟩
  | .hbm, ⟨19, _⟩ => ⟨S131072x256, .f32⟩
  | .hbm, ⟨20, _⟩ => ⟨S128x1024x256, .f32⟩
  | .hbm, ⟨21, _⟩ => ⟨S131072x256, .f32⟩
  | .hbm, ⟨22, _⟩ => ⟨S256x256, .f32⟩
  | .hbm, ⟨23, _⟩ => ⟨S131072x256, .f32⟩
  | .hbm, ⟨24, _⟩ => ⟨S1x256, .f32⟩
  | .hbm, ⟨25, _⟩ => ⟨S131072x256, .f32⟩
  | .hbm, ⟨26, _⟩ => ⟨S131072x256, .f32⟩
  | .hbm, ⟨27, _⟩ => ⟨S131072x256, .f32⟩
  | .hbm, ⟨28, _⟩ => ⟨S256x256, .f32⟩
  | .hbm, ⟨29, _⟩ => ⟨S131072x256, .f32⟩
  | .hbm, ⟨30, _⟩ => ⟨S1x256, .f32⟩
  | .hbm, ⟨31, _⟩ => ⟨S131072x256, .f32⟩
  | .hbm, ⟨32, _⟩ => ⟨S131072x256, .f32⟩
  | .hbm, ⟨33, _⟩ => ⟨S131072x256, .f32⟩
  | .hbm, ⟨34, _⟩ => ⟨S256x256, .f32⟩
  | .hbm, ⟨35, _⟩ => ⟨S131072x256, .f32⟩
  | .hbm, ⟨36, _⟩ => ⟨S1x256, .f32⟩
  | .hbm, ⟨37, _⟩ => ⟨S131072x256, .f32⟩
  | .hbm, ⟨38, _⟩ => ⟨S131072x256, .f32⟩
  | .hbm, ⟨39, _⟩ => ⟨S131072x256, .f32⟩
  | .hbm, ⟨40, _⟩ => ⟨S131072x256, .f32⟩
  | .hbm, ⟨41, _⟩ => ⟨S131072x768, .f32⟩
  | .hbm, ⟨42, _⟩ => ⟨S768x1, .f32⟩
  | .hbm, ⟨43, _⟩ => ⟨S131072x1, .f32⟩
  | .hbm, ⟨44, _⟩ => ⟨S1x1, .f32⟩
  | .hbm, ⟨45, _⟩ => ⟨S131072x1, .f32⟩
  | .hbm, ⟨46, _⟩ => ⟨S131072x1, .f32⟩
  | .hbm, ⟨47, _⟩ => ⟨S131072x1, .f32⟩
  | .hbm, ⟨48, _⟩ => ⟨S131072x1, .f32⟩
  | .hbm, ⟨49, _⟩ => ⟨S_, .f32⟩
  | .hbm, ⟨50, _⟩ => ⟨S131072x1, .f32⟩
  | .hbm, ⟨51, _⟩ => ⟨S131072x1, .f32⟩
  | .hbm, ⟨52, _⟩ => ⟨S_, .f32⟩
  | .hbm, ⟨53, _⟩ => ⟨S131072x1, .f32⟩
  | .hbm, ⟨54, _⟩ => ⟨S131072x1, .f32⟩
  | .hbm, ⟨55, _⟩ => ⟨S131072x256, .f32⟩
  | .hbm, ⟨56, _⟩ => ⟨S131072x256, .f32⟩
  | .hbm, ⟨57, _⟩ => ⟨S_, .f32⟩
  | .hbm, ⟨58, _⟩ => ⟨S131072x1, .f32⟩
  | .hbm, ⟨59, _⟩ => ⟨S131072x1, .f32⟩
  | .hbm, ⟨60, _⟩ => ⟨S131072x256, .f32⟩
  | .hbm, ⟨61, _⟩ => ⟨S131072x256, .f32⟩
  | .hbm, ⟨62, _⟩ => ⟨S131072x256, .f32⟩
  | .hbm, ⟨63, _⟩ => ⟨S131072x256, .f32⟩
  | .hbm, ⟨64, _⟩ => ⟨S131072x768, .f32⟩
  | .hbm, ⟨65, _⟩ => ⟨S768x1, .f32⟩
  | .hbm, ⟨66, _⟩ => ⟨S131072x1, .f32⟩
  | .hbm, ⟨67, _⟩ => ⟨S1x1, .f32⟩
  | .hbm, ⟨68, _⟩ => ⟨S131072x1, .f32⟩
  | .hbm, ⟨69, _⟩ => ⟨S131072x1, .f32⟩
  | .hbm, ⟨70, _⟩ => ⟨S131072x1, .f32⟩
  | .hbm, ⟨71, _⟩ => ⟨S131072x1, .f32⟩
  | .hbm, ⟨72, _⟩ => ⟨S_, .f32⟩
  | .hbm, ⟨73, _⟩ => ⟨S131072x1, .f32⟩
  | .hbm, ⟨74, _⟩ => ⟨S131072x1, .f32⟩
  | .hbm, ⟨75, _⟩ => ⟨S_, .f32⟩
  | .hbm, ⟨76, _⟩ => ⟨S131072x1, .f32⟩
  | .hbm, ⟨77, _⟩ => ⟨S131072x1, .f32⟩
  | .hbm, ⟨78, _⟩ => ⟨S131072x256, .f32⟩
  | .hbm, ⟨79, _⟩ => ⟨S131072x256, .f32⟩
  | .hbm, ⟨80, _⟩ => ⟨S_, .f32⟩
  | .hbm, ⟨81, _⟩ => ⟨S131072x1, .f32⟩
  | .hbm, ⟨82, _⟩ => ⟨S131072x1, .f32⟩
  | .hbm, ⟨83, _⟩ => ⟨S131072x256, .f32⟩
  | .hbm, ⟨84, _⟩ => ⟨S131072x256, .f32⟩
  | .hbm, ⟨85, _⟩ => ⟨S131072x256, .f32⟩
  | .hbm, ⟨86, _⟩ => ⟨S131072x256, .f32⟩
  | .hbm, ⟨87, _⟩ => ⟨S131072x768, .f32⟩
  | .hbm, ⟨88, _⟩ => ⟨S768x1, .f32⟩
  | .hbm, ⟨89, _⟩ => ⟨S131072x1, .f32⟩
  | .hbm, ⟨90, _⟩ => ⟨S1x1, .f32⟩
  | .hbm, ⟨91, _⟩ => ⟨S131072x1, .f32⟩
  | .hbm, ⟨92, _⟩ => ⟨S131072x1, .f32⟩
  | .hbm, ⟨93, _⟩ => ⟨S131072x1, .f32⟩
  | .hbm, ⟨94, _⟩ => ⟨S131072x1, .f32⟩
  | .hbm, ⟨95, _⟩ => ⟨S_, .f32⟩
  | .hbm, ⟨96, _⟩ => ⟨S131072x1, .f32⟩
  | .hbm, ⟨97, _⟩ => ⟨S131072x1, .f32⟩
  | .hbm, ⟨98, _⟩ => ⟨S_, .f32⟩
  | .hbm, ⟨99, _⟩ => ⟨S131072x1, .f32⟩
  | .hbm, ⟨100, _⟩ => ⟨S131072x1, .f32⟩
  | .hbm, ⟨101, _⟩ => ⟨S131072x256, .f32⟩
  | .hbm, ⟨102, _⟩ => ⟨S131072x256, .f32⟩
  | .hbm, ⟨103, _⟩ => ⟨S_, .f32⟩
  | .hbm, ⟨104, _⟩ => ⟨S131072x1, .f32⟩
  | .hbm, ⟨105, _⟩ => ⟨S131072x1, .f32⟩
  | .hbm, ⟨106, _⟩ => ⟨S131072x256, .f32⟩
  | .hbm, ⟨107, _⟩ => ⟨S131072x256, .f32⟩
  | .hbm, ⟨108, _⟩ => ⟨S131072x256, .f32⟩
  | .hbm, ⟨109, _⟩ => ⟨S131072x768, .f32⟩
  | _, _ => ⟨S1024x128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst : Ref sig .tc := ⟨.hbm, 49, rfl⟩
abbrev main_v33 : Ref sig .tc := ⟨.hbm, 50, rfl⟩
abbrev main_v34 : Ref sig .tc := ⟨.hbm, 51, rfl⟩
abbrev main_cst_0 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_1 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_2 : Ref sig .tc := ⟨.hbm, 72, rfl⟩
abbrev main_v53 : Ref sig .tc := ⟨.hbm, 73, rfl⟩
abbrev main_v54 : Ref sig .tc := ⟨.hbm, 74, rfl⟩
abbrev main_cst_3 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_4 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_cst_5 : Ref sig .tc := ⟨.hbm, 95, rfl⟩
abbrev main_v73 : Ref sig .tc := ⟨.hbm, 96, rfl⟩
abbrev main_v74 : Ref sig .tc := ⟨.hbm, 97, rfl⟩
abbrev main_cst_6 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_cst_7 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩

abbrev nD : Nat := 1
abbrev τ : Topo := Topo.v7x

variable {F : FTy → Type} [FloatOps F]

class Facts₀ : Prop where
  transposes_S1024x128x256_S128x1024x256_1_0_2 : S1024x128x256.Transposes [1, 0, 2] S128x1024x256
  shapeCasts_S128x1024x256_S131072x256 : S128x1024x256.ShapeCasts S131072x256
  transposes_S256x256_S256x256_1_0 : S256x256.Transposes [1, 0] S256x256
  bcast_S256_S1x256_1 : S256.BroadcastsInDim S1x256 (![1] : Fin 1 → Fin S1x256.rank)
  bcast_S1x256_S131072x256_0_1 : S1x256.BroadcastsInDim S131072x256 (![0, 1] : Fin 2 → Fin S131072x256.rank)
  concatenates_S131072x256_S131072x256_S131072x256_S131072x768_d1 : Shape.Concatenates [S131072x256, S131072x256, S131072x256] S131072x768 1
  transposes_S1x768_S768x1_1_0 : S1x768.Transposes [1, 0] S768x1
  bcast_S1_S1x1_1 : S1.BroadcastsInDim S1x1 (![1] : Fin 1 → Fin S1x1.rank)
  bcast_S1x1_S131072x1_0_1 : S1x1.BroadcastsInDim S131072x1 (![0, 1] : Fin 2 → Fin S131072x1.rank)
  bcast_S_S131072x1 : S_.BroadcastsInDim S131072x1 (![] : Fin 0 → Fin S131072x1.rank)
  bcast_S131072x1_S131072x256_0_1 : S131072x1.BroadcastsInDim S131072x256 (![0, 1] : Fin 2 → Fin S131072x256.rank)
  dot_S131072x256_S256x256_S131072x256_1_0_0_1_n_n_wf : DotDims.WF S131072x256 S256x256 S131072x256 [1] [0] [0] [1] [] []
  dot_S131072x768_S768x1_S131072x1_1_0_0_1_n_n_wf : DotDims.WF S131072x768 S768x1 S131072x1 [1] [0] [0] [1] [] []

variable [Facts₀]

def dot_S131072x256_S256x256_S131072x256_1_0_0_1_n_n : DotDims S131072x256 S256x256 S131072x256 where
  lhsContracting := [1]
  rhsContracting := [0]
  lhsNonContracting := [0]
  rhsNonContracting := [1]
  lhsBatch := []
  rhsBatch := []
  wf := dot_S131072x256_S256x256_S131072x256_1_0_0_1_n_n_wf
def dot_S131072x768_S768x1_S131072x1_1_0_0_1_n_n : DotDims S131072x768 S768x1 S131072x1 where
  lhsContracting := [1]
  rhsContracting := [0]
  lhsNonContracting := [0]
  rhsNonContracting := [1]
  lhsBatch := []
  rhsBatch := []
  wf := dot_S131072x768_S768x1_S131072x1_1_0_0_1_n_n_wf

class Facts : Prop extends Facts₀ where

variable [Facts]
-- ==== Proof.Spec.lean ====
/-
  What both programs compute, as one function of the arrays, index by index.

  Rows are graph nodes.  For each of the three modalities a hidden value
      hiddenAt n wT b (r, d) = tanh (∑ k, n[r,k] · wT[k,d] + b[d]),
  for each PAIR of modalities (x, y) a gate
      gate (r) = logistic (∑_{k<768} cat(x, y, x·y)[r,k] · w[0,k] + bias[0]),
  and the result row is three blocks of 256 columns, block s holding
      gate_s(r) · h_s(r,d) + (1 − gate_s(r)) · h'_s(r,d).
  The 768-wide product with the concatenation splits into three 256-wide sums, one per third of the weight row:
  only commutativity and associativity of + on the extended reals are used, so no finiteness is needed.
  Everything is stated for any number of rows R, so that the same function describes one block of rows and the
  whole array: a row of the result depends on that row of the inputs only.
-/
import Idealize.ShloMosaic.PureOps.Ideal.Laws
import Idealize.ShloMosaic.Lib.ValueIdx

noncomputable section

namespace Cert.Fusion

open Idealize.ShloMosaic Idealize.ShloMosaic.ValueIdx

/-- The number one, as both programs write it: the single-precision word 0x3F800000. -/
def one : EReal := Ideal.ofBits .f32 0x3F800000#32

theorem one_eq : one = 1 := by
  unfold one; simp [Ideal.ofBits, Ideal.ieee, -EReal.coe_mul]; norm_num

/-- A third of the 768 gate weights: position o + k, for k < 256 and o + 256 ≤ 768. -/
def third (o : ℕ) (ho : o + 256 ≤ 768) (k : Fin 256) : Fin 768 := ⟨o + k.val, by have := k.isLt; omega⟩

variable {R : ℕ}

/-- tanh (∑ k, n[r,k] · wT[k,d] + b[d]). -/
def hiddenAt (n : (⟨2, ![R, 256]⟩ : Shape).Idx → EReal) (wT : (⟨2, ![256, 256]⟩ : Shape).Idx → EReal)
    (b : (⟨1, ![256]⟩ : Shape).Idx → EReal) (r : Fin R) (d : Fin 256) : EReal :=
  Ideal.tanh ((∑ k : Fin 256, n (ix2 r k) * wT (ix2 k d)) + b (ix1 d))

/-- The gate's argument, the 768-wide product split in its three thirds:
    ∑ x[r,k]·w[k] + ∑ y[r,k]·w[256+k] + ∑ (x[r,k]·y[r,k])·w[512+k] + bias. -/
def logit (x y : (⟨2, ![R, 256]⟩ : Shape).Idx → EReal) (w : (⟨2, ![1, 768]⟩ : Shape).Idx → EReal)
    (bias : (⟨1, ![1]⟩ : Shape).Idx → EReal) (r : Fin R) : EReal :=
  (((∑ k : Fin 256, x (ix2 r k) * w (ix2 (0 : Fin 1) (third 0 (by omega) k)))
      + (∑ k : Fin 256, y (ix2 r k) * w (ix2 (0 : Fin 1) (third 256 (by omega) k))))
    + (∑ k : Fin 256, (x (ix2 r k) * y (ix2 r k)) * w (ix2 (0 : Fin 1) (third 512 (by omega) k))))
  + bias (ix1 (0 : Fin 1))

/-- z · h + (1 − z) · h'. -/
def gated (z h h' : EReal) : EReal := z * h + (one - z) * h'

/-- One 256-column block of the result for the pair (x, y) with hidden values hx, hy. -/
def pairAt (x y : (⟨2, ![R, 256]⟩ : Shape).Idx → EReal) (w : (⟨2, ![1, 768]⟩ : Shape).Idx → EReal)
    (bias : (⟨1, ![1]⟩ : Shape).Idx → EReal) (hx hy : Fin R → Fin 256 → EReal) (r : Fin R) (d : Fin 256) : EReal :=
  gated (Ideal.logistic (logit x y w bias r)) (hx r d) (hy r d)

/-- The result at row r, column c: the block c / 256 at column c mod 256. -/
def fusedAt (na nv nl : (⟨2, ![R, 256]⟩ : Shape).Idx → EReal)
    (waT : (⟨2, ![256, 256]⟩ : Shape).Idx → EReal) (ba : (⟨1, ![256]⟩ : Shape).Idx → EReal)
    (wvT : (⟨2, ![256, 256]⟩ : Shape).Idx → EReal) (bv : (⟨1, ![256]⟩ : Shape).Idx → EReal)
    (wlT : (⟨2, ![256, 256]⟩ : Shape).Idx → EReal) (bl : (⟨1, ![256]⟩ : Shape).Idx → EReal)
    (wav : (⟨2, ![1, 768]⟩ : Shape).Idx → EReal) (bav : (⟨1, ![1]⟩ : Shape).Idx → EReal)
    (wal : (⟨2, ![1, 768]⟩ : Shape).Idx → EReal) (bal : (⟨1, ![1]⟩ : Shape).Idx → EReal)
    (wvl : (⟨2, ![1, 768]⟩ : Shape).Idx → EReal) (bvl : (⟨1, ![1]⟩ : Shape).Idx → EReal)
    (r : Fin R) (c : Fin 768) : EReal :=
  if h0 : c.val < 256 then
    pairAt na nv wav bav (hiddenAt na waT ba) (hiddenAt nv wvT bv) r ⟨c.val, h0⟩
  else if h1 : c.val < 512 then
    pairAt na nl wal bal (hiddenAt na waT ba) (hiddenAt nl wlT bl) r ⟨c.val - 256, by omega⟩
  else
    pairAt nv nl wvl bvl (hiddenAt nv wvT bv) (hiddenAt nl wlT bl) r ⟨c.val - 512, by have := c.isLt; omega⟩

/-- The result array. -/
def fused (na nv nl : (⟨2, ![R, 256]⟩ : Shape).Idx → EReal)
    (waT : (⟨2, ![256, 256]⟩ : Shape).Idx → EReal) (ba : (⟨1, ![256]⟩ : Shape).Idx → EReal)
    (wvT : (⟨2, ![256, 256]⟩ : Shape).Idx → EReal) (bv : (⟨1, ![256]⟩ : Shape).Idx → EReal)
    (wlT : (⟨2, ![256, 256]⟩ : Shape).Idx → EReal) (bl : (⟨1, ![256]⟩ : Shape).Idx → EReal)
    (wav : (⟨2, ![1, 768]⟩ : Shape).Idx → EReal) (bav : (⟨1, ![1]⟩ : Shape).Idx → EReal)
    (wal : (⟨2, ![1, 768]⟩ : Shape).Idx → EReal) (bal : (⟨1, ![1]⟩ : Shape).Idx → EReal)
    (wvl : (⟨2, ![1, 768]⟩ : Shape).Idx → EReal) (bvl : (⟨1, ![1]⟩ : Shape).Idx → EReal) :
    (⟨2, ![R, 768]⟩ : Shape).Idx → EReal :=
  fun j => fusedAt na nv nl waT ba wvT bv wlT bl wav bav wal bal wvl bvl (j 0) (j 1)

/-! ## The result's three column blocks -/

section Blocks

variable (na nv nl : (⟨2, ![R, 256]⟩ : Shape).Idx → EReal)
    (waT : (⟨2, ![256, 256]⟩ : Shape).Idx → EReal) (ba : (⟨1, ![256]⟩ : Shape).Idx → EReal)
    (wvT : (⟨2, ![256, 256]⟩ : Shape).Idx → EReal) (bv : (⟨1, ![256]⟩ : Shape).Idx → EReal)
    (wlT : (⟨2, ![256, 256]⟩ : Shape).Idx → EReal) (bl : (⟨1, ![256]⟩ : Shape).Idx → EReal)
    (wav : (⟨2, ![1, 768]⟩ : Shape).Idx → EReal) (bav : (⟨1, ![1]⟩ : Shape).Idx → EReal)
    (wal : (⟨2, ![1, 768]⟩ : Shape).Idx → EReal) (bal : (⟨1, ![1]⟩ : Shape).Idx → EReal)
    (wvl : (⟨2, ![1, 768]⟩ : Shape).Idx → EReal) (bvl : (⟨1, ![1]⟩ : Shape).Idx → EReal)

/-- Columns 0 … 255: the pair (a, v). -/
theorem fusedAt_block0 (r : Fin R) (d : Fin 256) (c : Fin 768) (hc : c.val = d.val) :
    fusedAt na nv nl waT ba wvT bv wlT bl wav bav wal bal wvl bvl r c
      = pairAt na nv wav bav (hiddenAt na waT ba) (hiddenAt nv wvT bv) r d := by
  have hd := d.isLt
  unfold fusedAt
  rw [dif_pos (by omega)]
  exact congrArg _ (Fin.ext hc)

/-- Columns 256 … 511: the pair (a, l). -/
theorem fusedAt_block1 (r : Fin R) (d : Fin 256) (c : Fin 768) (hc : c.val = 256 + d.val) :
    fusedAt na nv nl waT ba wvT bv wlT bl wav bav wal bal wvl bvl r c
      = pairAt na nl wal bal (hiddenAt na waT ba) (hiddenAt nl wlT bl) r d := by
  have hd := d.isLt
  unfold fusedAt
  rw [dif_neg (by omega), dif_pos (by omega)]
  exact congrArg _ (Fin.ext (by show c.val - 256 = d.val; omega))

/-- Columns 512 … 767: the pair (v, l). -/
theorem fusedAt_block2 (r : Fin R) (d : Fin 256) (c : Fin 768) (hc : c.val = 512 + d.val) :
    fusedAt na nv nl waT ba wvT bv wlT bl wav bav wal bal wvl bvl r c
      = pairAt nv nl wvl bvl (hiddenAt nv wvT bv) (hiddenAt nl wlT bl) r d := by
  have hd := d.isLt
  unfold fusedAt
  rw [dif_neg (by omega), dif_neg (by omega)]
  exact congrArg _ (Fin.ext (by show c.val - 512 = d.val; omega))

end Blocks

/-! ## A row of the result depends on that row of the inputs only -/

/-- The result at row r' of one family of inputs is the result at row r of another as soon as the three row arrays agree
    on those rows and the weights and biases are the same. -/
theorem fusedAt_rows {R R' : ℕ}
    (na nv nl : (⟨2, ![R, 256]⟩ : Shape).Idx → EReal) (na' nv' nl' : (⟨2, ![R', 256]⟩ : Shape).Idx → EReal)
    (waT waT' : (⟨2, ![256, 256]⟩ : Shape).Idx → EReal) (ba ba' : (⟨1, ![256]⟩ : Shape).Idx → EReal)
    (wvT wvT' : (⟨2, ![256, 256]⟩ : Shape).Idx → EReal) (bv bv' : (⟨1, ![256]⟩ : Shape).Idx → EReal)
    (wlT wlT' : (⟨2, ![256, 256]⟩ : Shape).Idx → EReal) (bl bl' : (⟨1, ![256]⟩ : Shape).Idx → EReal)
    (wav wav' : (⟨2, ![1, 768]⟩ : Shape).Idx → EReal) (bav bav' : (⟨1, ![1]⟩ : Shape).Idx → EReal)
    (wal wal' : (⟨2, ![1, 768]⟩ : Shape).Idx → EReal) (bal bal' : (⟨1, ![1]⟩ : Shape).Idx → EReal)
    (wvl wvl' : (⟨2, ![1, 768]⟩ : Shape).Idx → EReal) (bvl bvl' : (⟨1, ![1]⟩ : Shape).Idx → EReal)
    (r : Fin R) (r' : Fin R') (c c' : Fin 768) (hc : c'.val = c.val)
    (ha : ∀ k, na' (ix2 r' k) = na (ix2 r k)) (hv : ∀ k, nv' (ix2 r' k) = nv (ix2 r k))
    (hl : ∀ k, nl' (ix2 r' k) = nl (ix2 r k))
    (h3 : waT' = waT) (h4 : ba' = ba) (h5 : wvT' = wvT) (h6 : bv' = bv) (h7 : wlT' = wlT) (h8 : bl' = bl)
    (h9 : wav' = wav) (h10 : bav' = bav) (h11 : wal' = wal) (h12 : bal' = bal) (h13 : wvl' = wvl) (h14 : bvl' = bvl) :
    fusedAt na' nv' nl' waT' ba' wvT' bv' wlT' bl' wav' bav' wal' bal' wvl' bvl' r' c'
      = fusedAt na nv nl waT ba wvT bv wlT bl wav bav wal bal wvl bvl r c := by
  subst h3 h4 h5 h6 h7 h8 h9 h10 h11 h12 h13 h14
  obtain rfl : c' = c := Fin.ext hc
  unfold fusedAt pairAt hiddenAt logit
  simp only [ha, hv, hl]

/-! ## A sum over 768 positions in its three thirds -/

/-- ∑_{k<768} f k = ∑_{k<256} f k + ∑_{k<256} f (256+k) + ∑_{k<256} f (512+k), in any commutative monoid. -/
theorem sum_thirds {M : Type*} [AddCommMonoid M] (f : Fin 768 → M) :
    ∑ k : Fin 768, f k
      = ((∑ k : Fin 256, f (third 0 (by omega) k)) + (∑ k : Fin 256, f (third 256 (by omega) k)))
        + (∑ k : Fin 256, f (third 512 (by omega) k)) := by
  have h1 := Fin.sum_univ_add (M := M) (a := 512) (b := 256) (fun i : Fin (512 + 256) => f ⟨i.val, i.isLt⟩)
  have h2 := Fin.sum_univ_add (M := M) (a := 256) (b := 256) (fun i : Fin (256 + 256) => f ⟨i.val, by have := i.isLt; omega⟩)
  refine h1.trans ?_
  refine congrArg₂ (· + ·) (h2.trans (congrArg₂ (· + ·) ?_ ?_)) ?_
  · exact Finset.sum_congr rfl fun k _ => congrArg f (Fin.ext (by show k.val = 0 + k.val; omega))
  · exact Finset.sum_congr rfl fun k _ => congrArg f (Fin.ext rfl)
  · exact Finset.sum_congr rfl fun k _ => congrArg f (Fin.ext rfl)

/-! ## The two spellings of the sigmoid -/

/-- The host's expansion 1 / (1 + exp (−x)), with both ones written as the word 0x3F800000, is the logistic function. -/
theorem sigmoid_expansion (x : EReal) :
    Ideal.div one (one + Ideal.exp (-x)) = Ideal.logistic x := by
  rw [one_eq]; rfl

end Cert.Fusion

end
-- ==== Proof.LibPlainDot.lean ====
/-
  A plain matrix product read at an index.  For the dimension numbers of rows-by-columns (the left operand contracted on
  its second axis, the right on its first, no batch axis) the contraction index is one coordinate k, the left operand is
  read at (r, k) and the right at (k, c): the sum over the contraction shape is the sum over k < K of l[r,k] · r[k,c].
  Both a kernel's matrix unit into a zero accumulator and the host's dot product are this sum at the exact instance.
-/
import Idealize.ShloMosaic.PureOps.Ideal.Laws
import Idealize.ShloMosaic.Lib.ValueIdx

namespace Idealize.ShloMosaic.ValueIdx

open Idealize.ShloMosaic

variable {M K N : ℕ}

/-- The left operand's row is the result's row. -/
theorem plain_lhs_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction coordinate. -/
theorem plain_lhs_1 (i : (⟨2, ![M, N]⟩ : Shape).Idx) (q : (DotDims.plain M K N).contr.Idx) :
    ((DotDims.plain M K N).lhsIdx i q 1).val = (q ⟨0, by rw [DotDims.rank_contr]; exact Nat.one_pos⟩).val :=
  (DotDims.plain M K N).lhsIdx_val_of_single rfl i q

/-- The right operand's row is the contraction coordinate. -/
theorem plain_rhs_0 (i : (⟨2, ![M, N]⟩ : Shape).Idx) (q : (DotDims.plain M K N).contr.Idx) :
    ((DotDims.plain M K N).rhsIdx i q 0).val = (q ⟨0, by rw [DotDims.rank_contr]; exact Nat.one_pos⟩).val :=
  (DotDims.plain M K N).rhsIdx_val_of_single rfl i q

/-- The right operand's column is the result's column. -/
theorem plain_rhs_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction sum of a plain product, over the one coordinate k < K. -/
theorem plain_dot_sum (l : (⟨2, ![M, K]⟩ : Shape).Idx → EReal) (r : (⟨2, ![K, N]⟩ : Shape).Idx → EReal)
    (i : (⟨2, ![M, N]⟩ : Shape).Idx) :
    ∑ k : (DotDims.plain M K N).contr.Idx, l ((DotDims.plain M K N).lhsIdx i k) * r ((DotDims.plain M K N).rhsIdx i k)
      = ∑ k : Fin K, l (ix2 (i 0) k) * r (ix2 k (i 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact plain_lhs_0 _ _
      | ⟨1, _⟩ => exact (plain_lhs_1 _ _).trans hk)
  have er : (DotDims.plain M K N).rhsIdx i ((contrEquiv1 (DotDims.plain M K N) K rfl rfl).symm k) = ix2 k (i 1) :=
    funext fun a => Fin.ext (by
      match a with
      | ⟨0, _⟩ => exact (plain_rhs_0 _ _).trans hk
      | ⟨1, _⟩ => exact plain_rhs_1 _ _)
  exact congrArg₂ (· * ·) (congrArg l el) (congrArg r er)

/-- A kernel's matrix unit into the zero accumulator, at the exact instance, read at an index. -/
theorem plain_matmul_zero_apply {φ₁ φ₂ : FTy} (prec : Option ContractPrecision)
    (l : FVec Ideal (⟨2, ![M, K]⟩ : Shape) φ₁) (r : FVec Ideal (⟨2, ![K, N]⟩ : Shape) φ₂) (i : (⟨2, ![M, N]⟩ : Shape).Idx) :
    FloatOps.matmul (DotDims.plain M K N) prec l r (constant (⟨2, ![M, N]⟩ : Shape) .f32 0x00000000#32) i
      = ∑ k : Fin K, l (ix2 (i 0) k) * r (ix2 k (i 1)) :=
  (Ideal.matmul_constant_zero_apply _ prec l r i).trans (plain_dot_sum l r i)

/-- The host's dot product, at the exact instance, read at an index. -/
theorem plain_dotGeneral_apply {φ₁ φ₂ : FTy} (prec : Option ContractPrecision) (sched : HostSchedule)
    (l : FVec Ideal (⟨2, ![M, K]⟩ : Shape) φ₁) (r : FVec Ideal (⟨2, ![K, N]⟩ : Shape) φ₂) (i : (⟨2, ![M, N]⟩ : Shape).Idx) :
    FloatOps.dotGeneral (DotDims.plain M K N) prec sched l r i = ∑ k : Fin K, l (ix2 (i 0) k) * r (ix2 k (i 1)) :=
  (Ideal.dotGeneral_apply _ prec sched l r i).trans (plain_dot_sum l r i)

end Idealize.ShloMosaic.ValueIdx
-- ==== Proof.LibColumnBroadcast.lean ====
/-
  One column broadcast over many: a `[a, 1]` array broadcast to `[a, b]` read at an index. The companion of the
  library's row form (one `[1, b]` row broadcast over `a` rows): there the unit axis is the leading one, here
  the trailing one.
-/
import Idealize.ShloMosaic.Lib.ValueLayout

namespace Idealize.ShloMosaic.ValueIdx

open Idealize.ShloMosaic

variable {α : Type}

/-- A `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.LibColumnCast.lean ====
/-
  A vector viewed as a column: a length-a array cast to shape a x 1 (what a row reduction that keeps its axis produces)
  holds, at (p, 0), the vector's entry p.  The companion of the library's leading-unit-axis casts, with the unit axis
  trailing.
-/
import Idealize.ShloMosaic.Lib.Pipeline.Value
import Idealize.ShloMosaic.Lib.ValueLayout

namespace Idealize.ShloMosaic.ValueIdx

open Idealize.ShloMosaic

variable {α : Type}

/-- A length-a vector cast to an a x 1 column reads, at (p, u), the vector at p, whatever the unit coordinate u. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

end Idealize.ShloMosaic.ValueIdx
-- ==== Proof.KernelPieces.lean ====
/-
  The kernel body's values read at an index, at the exact instance, over a block of 1024 rows.

  * A hidden value: the matrix unit into a zero accumulator is the plain sum over k of x[p,k] · w[k,d]; a change of float
    format is the identity; the bias vector viewed as one row and repeated down the rows reads b[d].
  * A third of a gate's 768-wide product: the weight row cut at offset o and repeated down the rows, times the rows,
    summed along the columns and kept as a column, is ∑ k, x[p,k] · w[0, o + k].
  * The mixing z · h + (1 − z) · h', with z = logistic of the gate's argument, one column repeated across 256 columns.
  Then the three stored values of the body, each as gate-mixed hidden values at (p, d).
-/
import proofs.«110243_j28097676051279_1_alg».proof.Proof.Gen.KernelIdeal.Skeleton
import proofs.«110243_j28097676051279_1_alg».proof.Proof.Spec
import proofs.«110243_j28097676051279_1_alg».proof.Proof.LibPlainDot
import proofs.«110243_j28097676051279_1_alg».proof.Proof.LibColumnBroadcast
import proofs.«110243_j28097676051279_1_alg».proof.Proof.LibColumnCast
import Idealize.ShloMosaic.Lib.ValueLayout
import Idealize.ShloMosaic.Lib.Pipeline.Value

noncomputable section

namespace Cert.KernelIdeal.Pieces

open Idealize.ShloMosaic Idealize.ShloMosaic.ValueIdx Cert.KernelIdeal Cert.KernelIdeal.Gen Cert.Fusion

/-! ## The hidden values -/

/-- tanh of a block of rows times the transposed weights plus the bias row, at (p, d):
    the matrix unit into a zero accumulator is the plain sum over k, a change of float format is the identity, the bias
    vector viewed as one row and repeated down the rows reads b[d]. -/
theorem hidden_apply (x : FVec Ideal S1024x256 .f32) (w : FVec Ideal S256x256 .f32) (b : FVec Ideal S256 .f32)
    (p : Fin 1024) (d : Fin 256) :
    Ideal.tanh (matmul dot_S1024x256_S256x256_S1024x256_1_0_0_1_n_n none
        (truncf .bf16 (shapeCast S1024x256 x shapeCasts_S1024x256_S1024x256) bitsLt_bf16_f32)
        (truncf .bf16 (shapeCast S256x256 w shapeCasts_S256x256_S256x256) bitsLt_bf16_f32)
        (constant S1024x256 .f32 0x00000000#32) (ix2 p d)
      + broadcastTo S1024x256 (shapeCast S1x256 b shapeCasts_S256_S1x256) broadcasts_S1x256_S1024x256 (ix2 p d))
    = hiddenAt (R := 1024) x w b p d := by
  unfold hiddenAt
  refine congrArg Ideal.tanh (congrArg₂ (· + ·) ?_ ?_)
  · refine (plain_matmul_zero_apply (M := 1024) (K := 256) (N := 256) none _ _ (ix2 p d)).trans ?_
    refine Finset.sum_congr rfl fun k _ => ?_
    show shapeCast S1024x256 x shapeCasts_S1024x256_S1024x256 (ix2 p k)
        * shapeCast S256x256 w shapeCasts_S256x256_S256x256 (ix2 k d) = x (ix2 p k) * w (ix2 k d)
    rw [shapeCast_self, shapeCast_self]
  · rw [broadcastTo_1b_ab_apply, shapeCast_a_1a_apply]

theorem pay4_apply (x : FVec Ideal S1024x256 .f32) (w : FVec Ideal S256x256 .f32) (b : FVec Ideal S256 .f32)
    (p : Fin 1024) (d : Fin 256) : k0_pay4 (F := Ideal) x w b (ix2 p d) = hiddenAt (R := 1024) x w b p d :=
  hidden_apply x w b p d

theorem pay5_apply (x : FVec Ideal S1024x256 .f32) (w : FVec Ideal S256x256 .f32) (b : FVec Ideal S256 .f32)
    (p : Fin 1024) (d : Fin 256) : k0_pay5 (F := Ideal) x w b (ix2 p d) = hiddenAt (R := 1024) x w b p d :=
  hidden_apply x w b p d

theorem pay6_apply (x : FVec Ideal S1024x256 .f32) (w : FVec Ideal S256x256 .f32) (b : FVec Ideal S256 .f32)
    (p : Fin 1024) (d : Fin 256) : k0_pay6 (F := Ideal) x w b (ix2 p d) = hiddenAt (R := 1024) x w b p d :=
  hidden_apply x w b p d

/-- The entry cast to its own shape changes nothing. -/
theorem pay1_eq (x : FVec Ideal S1024x256 .f32) : k0_pay1 (F := Ideal) x = x := shapeCast_self x _
theorem pay2_eq (x : FVec Ideal S1024x256 .f32) : k0_pay2 (F := Ideal) x = x := shapeCast_self x _
theorem pay3_eq (x : FVec Ideal S1024x256 .f32) : k0_pay3 (F := Ideal) x = x := shapeCast_self x _

/-! ## One third of a gate's product -/

/-- The source index of a sum along the columns: row p, column k. -/
theorem lift_row (p : Fin 1024) (k : Fin 256) :
    reduces_S1024x256_S1024.lift (ix1 p) k = ix2 p k :=
  funext fun a => Fin.ext (by match a with | ⟨0, _⟩ => rfl | ⟨1, _⟩ => rfl)

/-- A row sum kept as a column: ∑ k, y[p,k]. -/
theorem rowsum_apply (y : FVec Ideal S1024x256 .f32) (p : Fin 1024) (u : Fin 1) :
    shapeCast S1024x1 (multiReduction .add [1] S1024 y 0x00000000#32 reduces_S1024x256_S1024 (.inl rfl) rfl)
      shapeCasts_S1024_S1024x1 (ix2 p u) = ∑ k : Fin 256, y (ix2 p k) := by
  rw [shapeCast_a_a1_apply]
  refine (Ideal.multiReduction_add_single y 0x00000000#32 reduces_S1024x256_S1024 (.inl rfl) rfl (ix1 p)).trans ?_
  exact Finset.sum_congr rfl fun k _ => congrArg y (lift_row p k)

/-- A slice of the gate's weight row repeated down the rows reads w[0, o + k]. -/
theorem wslice_apply (w : FVec Ideal S1x768 .f32) (o : ℕ) (ho : o + 256 ≤ 768) (hs : S1x768.Slices ![0, o] S1x256)
    (p : Fin 1024) (k : Fin 256) :
    broadcastTo S1024x256 (extractStridedSlice S1x256 ![0, o] w hs) broadcasts_S1x256_S1024x256 (ix2 p k)
      = w (ix2 (0 : Fin 1) (third o ho k)) := by
  rw [broadcastTo_1b_ab_apply]
  exact slice2_axis1_apply o w hs (0 : Fin 1) k (third o ho k) rfl

/-- The bias of a gate, one number viewed as a 1 x 1 array and repeated down the rows. -/
theorem gbias_apply (b : FVec Ideal S1 .f32) (p : Fin 1024) (u : Fin 1) :
    broadcastTo S1024x1 (shapeCast S1x1 b shapeCasts_S1_S1x1) broadcasts_S1x1_S1024x1 (ix2 p u) = b (ix1 (0 : Fin 1)) := by
  rw [broadcastTo_1b_ab_apply, shapeCast_a_1a_apply]
  exact congrArg b (congrArg ix1 (Fin.ext (by omega)))

/-- The gate's argument without its bias, as a column: the three thirds of the 768-wide product. -/
theorem logit3_apply (x y : FVec Ideal S1024x256 .f32) (w : FVec Ideal S1x768 .f32) (p : Fin 1024) (u : Fin 1) :
    addf (addf
        (shapeCast S1024x1 (multiReduction .add [1] S1024
          (mulf x (broadcastTo S1024x256 (extractStridedSlice S1x256 ![0, 0] w slices_S1x768_o0_0_S1x256) broadcasts_S1x256_S1024x256))
          0x00000000#32 reduces_S1024x256_S1024 (.inl rfl) rfl) shapeCasts_S1024_S1024x1)
        (shapeCast S1024x1 (multiReduction .add [1] S1024
          (mulf y (broadcastTo S1024x256 (extractStridedSlice S1x256 ![0, 256] w slices_S1x768_o0_256_S1x256) broadcasts_S1x256_S1024x256))
          0x00000000#32 reduces_S1024x256_S1024 (.inl rfl) rfl) shapeCasts_S1024_S1024x1))
      (shapeCast S1024x1 (multiReduction .add [1] S1024
          (mulf (mulf x y) (broadcastTo S1024x256 (extractStridedSlice S1x256 ![0, 512] w slices_S1x768_o0_512_S1x256) broadcasts_S1x256_S1024x256))
          0x00000000#32 reduces_S1024x256_S1024 (.inl rfl) rfl) shapeCasts_S1024_S1024x1) (ix2 p u)
    = ((∑ k : Fin 256, x (ix2 p k) * w (ix2 (0 : Fin 1) (third 0 (by omega) k)))
        + (∑ k : Fin 256, y (ix2 p k) * w (ix2 (0 : Fin 1) (third 256 (by omega) k))))
      + (∑ k : Fin 256, (x (ix2 p k) * y (ix2 p k)) * w (ix2 (0 : Fin 1) (third 512 (by omega) k))) := by
  refine congrArg₂ (· + ·) (congrArg₂ (· + ·) ?_ ?_) ?_
  · refine (rowsum_apply _ p u).trans (Finset.sum_congr rfl fun k _ => ?_)
    exact congrArg (x (ix2 p k) * ·) (wslice_apply w 0 (by omega) _ p k)
  · refine (rowsum_apply _ p u).trans (Finset.sum_congr rfl fun k _ => ?_)
    exact congrArg (y (ix2 p k) * ·) (wslice_apply w 256 (by omega) _ p k)
  · refine (rowsum_apply _ p u).trans (Finset.sum_congr rfl fun k _ => ?_)
    exact congrArg ((x (ix2 p k) * y (ix2 p k)) * ·) (wslice_apply w 512 (by omega) _ p k)

/-! ## The mixing -/

/-- z · h + (1 − z) · h' with the gate z one column repeated across the 256 columns. -/
theorem mix_apply (s : FVec Ideal S1024x1 .f32) (h h' : FVec Ideal S1024x256 .f32) (p : Fin 1024) (d : Fin 256) :
    addf (mulf (broadcastTo S1024x256 (logistic s) broadcasts_S1024x1_S1024x256) h)
      (mulf (broadcastTo S1024x256 (subf (broadcast S1024x1 (Scalar.ofBits .f32 0x3F800000#32)) (logistic s))
        broadcasts_S1024x1_S1024x256) h') (ix2 p d)
    = gated (Ideal.logistic (s (ix2 p (0 : Fin 1)))) (h (ix2 p d)) (h' (ix2 p d)) := by
  show broadcastTo S1024x256 (logistic s) broadcasts_S1024x1_S1024x256 (ix2 p d) * h (ix2 p d)
      + broadcastTo S1024x256 (subf (broadcast S1024x1 (Scalar.ofBits .f32 0x3F800000#32)) (logistic s))
          broadcasts_S1024x1_S1024x256 (ix2 p d) * h' (ix2 p d) = _
  rw [broadcastTo_a1_ab_apply, broadcastTo_a1_ab_apply]
  rfl

end Cert.KernelIdeal.Pieces

/-! ## The three stored values -/

namespace Cert.KernelIdeal.Pieces

open Idealize.ShloMosaic Idealize.ShloMosaic.ValueIdx Cert.KernelIdeal Cert.KernelIdeal.Gen Cert.Fusion

/-- The gate's argument: the three thirds plus the bias. -/
theorem logit_apply (x y : FVec Ideal S1024x256 .f32) (w : FVec Ideal S1x768 .f32) (b : FVec Ideal S1 .f32)
    (s3 : FVec Ideal S1024x1 .f32) (p : Fin 1024)
    (h3 : s3 (ix2 p (0 : Fin 1))
      = ((∑ k : Fin 256, x (ix2 p k) * w (ix2 (0 : Fin 1) (third 0 (by omega) k)))
          + (∑ k : Fin 256, y (ix2 p k) * w (ix2 (0 : Fin 1) (third 256 (by omega) k))))
        + (∑ k : Fin 256, (x (ix2 p k) * y (ix2 p k)) * w (ix2 (0 : Fin 1) (third 512 (by omega) k)))) :
    addf s3 (broadcastTo S1024x1 (shapeCast S1x1 b shapeCasts_S1_S1x1) broadcasts_S1x1_S1024x1) (ix2 p (0 : Fin 1))
      = logit (R := 1024) x y w b p := by
  unfold logit
  exact congrArg₂ (· + ·) h3 (gbias_apply b p 0)

/-- Columns 0 … 255 of the block, for the pair (x, y) with hidden values hx, hy. -/
theorem pay9_apply (x y hx hy : FVec Ideal S1024x256 .f32) (w : FVec Ideal S1x768 .f32) (b : FVec Ideal S1 .f32)
    (p : Fin 1024) (d : Fin 256) :
    k0_pay9 (F := Ideal) x y hx hy w (k0_pay7 w) (k0_pay8 w) b (ix2 p d)
      = gated (Ideal.logistic (logit (R := 1024) x y w b p)) (hx (ix2 p d)) (hy (ix2 p d)) := by
  unfold k0_pay9 k0_pay7 k0_pay8
  refine (mix_apply _ hx hy p d).trans ?_
  exact congrArg (fun z => gated (Ideal.logistic z) (hx (ix2 p d)) (hy (ix2 p d)))
    (logit_apply x y w b _ p (logit3_apply x y w p 0))

/-- The second pair's gate argument without its bias. -/
theorem pay10_apply (x y : FVec Ideal S1024x256 .f32) (w : FVec Ideal S1x768 .f32) (p : Fin 1024) (u : Fin 1) :
    k0_pay10 (F := Ideal) x y w (ix2 p u)
      = ((∑ k : Fin 256, x (ix2 p k) * w (ix2 (0 : Fin 1) (third 0 (by omega) k)))
          + (∑ k : Fin 256, y (ix2 p k) * w (ix2 (0 : Fin 1) (third 256 (by omega) k))))
        + (∑ k : Fin 256, (x (ix2 p k) * y (ix2 p k)) * w (ix2 (0 : Fin 1) (third 512 (by omega) k))) := by
  unfold k0_pay10
  exact logit3_apply x y w p u

/-- Columns 256 … 511 of the block. -/
theorem pay12_apply (x y hx hy : FVec Ideal S1024x256 .f32) (w : FVec Ideal S1x768 .f32) (b : FVec Ideal S1 .f32)
    (p : Fin 1024) (d : Fin 256) :
    k0_pay12 (F := Ideal) hx hy (k0_pay10 x y w) (k0_pay11 b) (ix2 p d)
      = gated (Ideal.logistic (logit (R := 1024) x y w b p)) (hx (ix2 p d)) (hy (ix2 p d)) := by
  unfold k0_pay12 k0_pay11
  refine (mix_apply _ hx hy p d).trans ?_
  exact congrArg (fun z => gated (Ideal.logistic z) (hx (ix2 p d)) (hy (ix2 p d)))
    (logit_apply x y w b _ p (pay10_apply x y w p 0))

/-- Columns 512 … 767 of the block. -/
theorem pay13_apply (x y hx hy : FVec Ideal S1024x256 .f32) (w : FVec Ideal S1x768 .f32) (b : FVec Ideal S1 .f32)
    (p : Fin 1024) (d : Fin 256) :
    k0_pay13 (F := Ideal) x y hx hy w b (ix2 p d)
      = gated (Ideal.logistic (logit (R := 1024) x y w b p)) (hx (ix2 p d)) (hy (ix2 p d)) := by
  unfold k0_pay13
  refine (mix_apply _ hx hy p d).trans ?_
  exact congrArg (fun z => gated (Ideal.logistic z) (hx (ix2 p d)) (hy (ix2 p d)))
    (logit_apply x y w b _ p (logit3_apply x y w p 0))

end Cert.KernelIdeal.Pieces

end
-- ==== Proof.KernelBlock.lean ====
/-
  What one grid point leaves in the output window's buffer.  The body stores three 1024 x 256 values side by side, at column
  offsets 0, 256 and 512 of the 1024 x 768 buffer; each is one column block of the specification at 1024 rows, evaluated
  at the blocks the body loaded.  The three stores tile the buffer, so the buffer is that function everywhere.
-/
import proofs.«110243_j28097676051279_1_alg».proof.Proof.Gen.KernelIdeal.Frame
import proofs.«110243_j28097676051279_1_alg».proof.Proof.KernelPieces

noncomputable section

/-! ## The block: what one grid point leaves in the output window's buffer -/

namespace Cert.KernelIdeal.Block

open Idealize.ShloMosaic Idealize.ShloMosaic.ValueIdx Cert.KernelIdeal Cert.KernelIdeal.Gen Cert.Fusion Cert.KernelIdeal.Pieces

theorem hz2 : (![0, 0] : Fin 2 → Nat) = fun _ => 0 := funext fun a => by fin_cases a <;> rfl
theorem hz1 : (![0] : Fin 1 → Nat) = fun _ => 0 := funext fun a => by fin_cases a; rfl

/-- A store of 1024 x 256 values at column offset o of the 1024 x 768 buffer agrees with a function G of the buffer's
    index as soon as its value at (p, d) is G (p, o + d). -/
theorem cols_agree (G : S1024x768.Idx → EReal) (o : ℕ) (ho : o + 256 ≤ 768)
    (inb : ∀ a, (![0, o] : Fin 2 → Nat) a + S1024x256.size a ≤ S1024x768.size a)
    (pay : FVec Ideal S1024x256 .f32)
    (h : ∀ (p : Fin 1024) (d : Fin 256), pay (ix2 p d) = G (ix2 p ⟨o + d.val, by have := d.isLt; omega⟩))
    (x : S1024x256.Idx) :
    pay x = G ((Rect.unit (s := S1024x768) ![0, o] S1024x256.size inb).emb x) := by
  rw [eq_ix2 x]
  refine (h (x 0) (x 1)).trans (congrArg G ?_)
  funext a
  apply Fin.ext
  match a with
  | ⟨0, _⟩ => show (x 0).val = 0 + 1 * (x 0).val; omega
  | ⟨1, _⟩ => show o + (x 1).val = o + 1 * (x 1).val; omega

/-- The buffer after the body is the specification at 1024 rows, of the blocks the body loaded. -/
theorem out_eq (x0 x1 x2 : FVec Ideal S1024x256 .f32) (x3 : FVec Ideal S256x256 .f32) (x4 : FVec Ideal S256 .f32)
    (x5 : FVec Ideal S256x256 .f32) (x6 : FVec Ideal S256 .f32) (x7 : FVec Ideal S256x256 .f32) (x8 : FVec Ideal S256 .f32)
    (x9 : FVec Ideal S1x768 .f32) (x10 : FVec Ideal S1 .f32) (x11 : FVec Ideal S1x768 .f32) (x12 : FVec Ideal S1 .f32)
    (x13 : FVec Ideal S1x768 .f32) (x14 : FVec Ideal S1 .f32) :
    out0_15 (F := Ideal) x0 x1 x2 x3 x4 x5 x6 x7 x8 x9 x10 x11 x12 x13 x14
      = fused (R := 1024) x0 x1 x2 x3 x4 x5 x6 x7 x8 x9 x10 x11 x12 x13 x14 := by
  funext y
  unfold out0_15
  simp only [View.ld_unit_zero (S := S1024x256) hz2, View.ld_unit_zero (S := S256x256) hz2, View.ld_unit_zero (S := S256) hz1,
    View.ld_unit_zero (S := S1x768) hz2, View.ld_unit_zero (S := S1) hz1]
  rw [pay1_eq, pay2_eq, pay3_eq]
  refine View.canon_apply_of_pieces (Val := Elt Ideal) (S := S1024x768) (e := .f32) (fused (R := 1024) x0 x1 x2 x3 x4 x5 x6 x7 x8 x9 x10 x11 x12 x13 x14) _ ?_ y
    (cover0_15 _ _ _ y)
  intro pc hpc
  simp only [List.mem_cons, List.not_mem_nil, or_false] at hpc
  rcases hpc with rfl | rfl | rfl
  · refine cols_agree _ 512 (by omega) inb_S1024x768_S1024x256_0_512 _ fun p d => ?_
    refine (pay13_apply x1 x2 _ _ x13 x14 p d).trans ?_
    rw [pay5_apply, pay6_apply]
    exact (fusedAt_block2 x0 x1 x2 x3 x4 x5 x6 x7 x8 x9 x10 x11 x12 x13 x14 p d _ rfl).symm
  · refine cols_agree _ 256 (by omega) inb_S1024x768_S1024x256_0_256 _ fun p d => ?_
    refine (pay12_apply x0 x2 _ _ x11 x12 p d).trans ?_
    rw [pay4_apply, pay6_apply]
    exact (fusedAt_block1 x0 x1 x2 x3 x4 x5 x6 x7 x8 x9 x10 x11 x12 x13 x14 p d _ rfl).symm
  · refine cols_agree _ 0 (by omega) inb_S1024x768_S1024x256_0_0 _ fun p d => ?_
    refine (pay9_apply x0 x1 _ _ x9 x10 p d).trans ?_
    rw [pay4_apply, pay5_apply]
    exact (fusedAt_block0 x0 x1 x2 x3 x4 x5 x6 x7 x8 x9 x10 x11 x12 x13 x14 p d _ (by show 0 + d.val = d.val; omega)).symm

end Cert.KernelIdeal.Block

end
-- ==== Proof.KernelValue.lean ====
/-
  From blocks to the array.  The grid has 128 points; point t fetches rows 1024 t … 1024 t + 1023 of the three row
  arrays and the whole of every weight and bias array, and writes back rows 1024 t … 1024 t + 1023 of the result.
  What it writes back is the specification at 1024 rows of the fetched blocks, which is that block of rows of the
  specification at 131072 rows of the arrays: a row of the result depends on that row of the inputs only.  The 128
  blocks of rows cover the result, so after the run the result array is the specification of the arrays as the region
  finds them: the batch-major rows and the transposed weights the host operations before the region formed.
-/
import proofs.«110243_j28097676051279_1_alg».proof.Proof.Gen.KernelIdeal.Value
import proofs.«110243_j28097676051279_1_alg».proof.Proof.KernelBlock

set_option maxRecDepth 16384

noncomputable section

namespace Cert.KernelIdeal.RowValue

open Cert.KernelIdeal Cert.KernelIdeal.Gen Cert.KernelIdeal.Value Idealize.ShloMosaic Idealize.ShloMosaic.TcCoe Idealize.SL.Sem
open Idealize.ShloMosaic.ValueIdx Cert.Fusion Cert.KernelIdeal.Block
open Idealize.ShloMosaic.Pipeline (Dat)

variable (m : (ℓ : Loc nD τ sig) → Buf (Elt Ideal) ℓ) (ρ : Dev nD → PrngReg)

/-! ## The index maps, decided over the grid -/

/-- The three row windows and the output window take block t of rows at point t, all columns. -/
theorem row_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_15.index t (0 : Fin 2) = t.val ∧ win0_15.index t (1 : Fin 2) = 0 :=
  (by decide +kernel : ∀ t : Fin grid0.N, _)

/-- Every weight and bias window takes its one block at every point. -/
theorem whole_facts : ∀ t : Fin cfg0.N,
    win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0
    ∧ win0_9.index t (0 : Fin 2) = 0 ∧ win0_9.index t (1 : Fin 2) = 0
    ∧ win0_10.index t (0 : Fin 1) = 0
    ∧ win0_11.index t (0 : Fin 2) = 0 ∧ win0_11.index t (1 : Fin 2) = 0
    ∧ win0_12.index t (0 : Fin 1) = 0
    ∧ win0_13.index t (0 : Fin 2) = 0 ∧ win0_13.index t (1 : Fin 2) = 0
    ∧ win0_14.index t (0 : Fin 1) = 0 :=
  (by decide +kernel : ∀ t : Fin grid0.N, _)

/-- Window 3's block is its whole array at every grid point. -/
theorem whole3 (c : Dev nD) (t : Fin cfg0.N) : (iblk m c 3 t : S256x256.Idx → EReal) = V m c main_v6 := by
  obtain ⟨z3_0, z3_1, z4_0, z5_0, z5_1, z6_0, z7_0, z7_1, z8_0, z9_0, z9_1, z10_0, z11_0, z11_1, z12_0, z13_0, z13_1, z14_0⟩ := whole_facts t
  funext j
  show V m c main_v6 (((cfg0.win 3).blk t).view.emb j) = V m c main_v6 j
  refine congrArg (V m c main_v6) (funext fun a => Fin.ext ?_)
  match a with
  | ⟨0, _⟩ => show win0_3.index t (0 : Fin 2) * 256 + 1 * (j 0).val = (j 0).val; omega
  | ⟨1, _⟩ => show win0_3.index t (1 : Fin 2) * 256 + 1 * (j 1).val = (j 1).val; omega

/-- Window 4's block is its whole array at every grid point. -/
theorem whole4 (c : Dev nD) (t : Fin cfg0.N) : (iblk m c 4 t : S256.Idx → EReal) = V m c main_arg5 := by
  obtain ⟨z3_0, z3_1, z4_0, z5_0, z5_1, z6_0, z7_0, z7_1, z8_0, z9_0, z9_1, z10_0, z11_0, z11_1, z12_0, z13_0, z13_1, z14_0⟩ := whole_facts t
  funext j
  show V m c main_arg5 (((cfg0.win 4).blk t).view.emb j) = V m c main_arg5 j
  refine congrArg (V m c main_arg5) (funext fun a => Fin.ext ?_)
  match a with
  | ⟨0, _⟩ => show win0_4.index t (0 : Fin 1) * 256 + 1 * (j 0).val = (j 0).val; omega

/-- Window 5's block is its whole array at every grid point. -/
theorem whole5 (c : Dev nD) (t : Fin cfg0.N) : (iblk m c 5 t : S256x256.Idx → EReal) = V m c main_v7 := by
  obtain ⟨z3_0, z3_1, z4_0, z5_0, z5_1, z6_0, z7_0, z7_1, z8_0, z9_0, z9_1, z10_0, z11_0, z11_1, z12_0, z13_0, z13_1, z14_0⟩ := whole_facts t
  funext j
  show V m c main_v7 (((cfg0.win 5).blk t).view.emb j) = V m c main_v7 j
  refine congrArg (V m c main_v7) (funext fun a => Fin.ext ?_)
  match a with
  | ⟨0, _⟩ => show win0_5.index t (0 : Fin 2) * 256 + 1 * (j 0).val = (j 0).val; omega
  | ⟨1, _⟩ => show win0_5.index t (1 : Fin 2) * 256 + 1 * (j 1).val = (j 1).val; omega

/-- Window 6's block is its whole array at every grid point. -/
theorem whole6 (c : Dev nD) (t : Fin cfg0.N) : (iblk m c 6 t : S256.Idx → EReal) = V m c main_arg7 := by
  obtain ⟨z3_0, z3_1, z4_0, z5_0, z5_1, z6_0, z7_0, z7_1, z8_0, z9_0, z9_1, z10_0, z11_0, z11_1, z12_0, z13_0, z13_1, z14_0⟩ := whole_facts t
  funext j
  show V m c main_arg7 (((cfg0.win 6).blk t).view.emb j) = V m c main_arg7 j
  refine congrArg (V m c main_arg7) (funext fun a => Fin.ext ?_)
  match a with
  | ⟨0, _⟩ => show win0_6.index t (0 : Fin 1) * 256 + 1 * (j 0).val = (j 0).val; omega

/-- Window 7's block is its whole array at every grid point. -/
theorem whole7 (c : Dev nD) (t : Fin cfg0.N) : (iblk m c 7 t : S256x256.Idx → EReal) = V m c main_v8 := by
  obtain ⟨z3_0, z3_1, z4_0, z5_0, z5_1, z6_0, z7_0, z7_1, z8_0, z9_0, z9_1, z10_0, z11_0, z11_1, z12_0, z13_0, z13_1, z14_0⟩ := whole_facts t
  funext j
  show V m c main_v8 (((cfg0.win 7).blk t).view.emb j) = V m c main_v8 j
  refine congrArg (V m c main_v8) (funext fun a => Fin.ext ?_)
  match a with
  | ⟨0, _⟩ => show win0_7.index t (0 : Fin 2) * 256 + 1 * (j 0).val = (j 0).val; omega
  | ⟨1, _⟩ => show win0_7.index t (1 : Fin 2) * 256 + 1 * (j 1).val = (j 1).val; omega

/-- Window 8's block is its whole array at every grid point. -/
theorem whole8 (c : Dev nD) (t : Fin cfg0.N) : (iblk m c 8 t : S256.Idx → EReal) = V m c main_arg9 := by
  obtain ⟨z3_0, z3_1, z4_0, z5_0, z5_1, z6_0, z7_0, z7_1, z8_0, z9_0, z9_1, z10_0, z11_0, z11_1, z12_0, z13_0, z13_1, z14_0⟩ := whole_facts t
  funext j
  show V m c main_arg9 (((cfg0.win 8).blk t).view.emb j) = V m c main_arg9 j
  refine congrArg (V m c main_arg9) (funext fun a => Fin.ext ?_)
  match a with
  | ⟨0, _⟩ => show win0_8.index t (0 : Fin 1) * 256 + 1 * (j 0).val = (j 0).val; omega

/-- Window 9's block is its whole array at every grid point. -/
theorem whole9 (c : Dev nD) (t : Fin cfg0.N) : (iblk m c 9 t : S1x768.Idx → EReal) = V m c main_arg10 := by
  obtain ⟨z3_0, z3_1, z4_0, z5_0, z5_1, z6_0, z7_0, z7_1, z8_0, z9_0, z9_1, z10_0, z11_0, z11_1, z12_0, z13_0, z13_1, z14_0⟩ := whole_facts t
  funext j
  show V m c main_arg10 (((cfg0.win 9).blk t).view.emb j) = V m c main_arg10 j
  refine congrArg (V m c main_arg10) (funext fun a => Fin.ext ?_)
  match a with
  | ⟨0, _⟩ => show win0_9.index t (0 : Fin 2) * 1 + 1 * (j 0).val = (j 0).val; omega
  | ⟨1, _⟩ => show win0_9.index t (1 : Fin 2) * 768 + 1 * (j 1).val = (j 1).val; omega

/-- Window 10's block is its whole array at every grid point. -/
theorem whole10 (c : Dev nD) (t : Fin cfg0.N) : (iblk m c 10 t : S1.Idx → EReal) = V m c main_arg11 := by
  obtain ⟨z3_0, z3_1, z4_0, z5_0, z5_1, z6_0, z7_0, z7_1, z8_0, z9_0, z9_1, z10_0, z11_0, z11_1, z12_0, z13_0, z13_1, z14_0⟩ := whole_facts t
  funext j
  show V m c main_arg11 (((cfg0.win 10).blk t).view.emb j) = V m c main_arg11 j
  refine congrArg (V m c main_arg11) (funext fun a => Fin.ext ?_)
  match a with
  | ⟨0, _⟩ => show win0_10.index t (0 : Fin 1) * 1 + 1 * (j 0).val = (j 0).val; omega

/-- Window 11's block is its whole array at every grid point. -/
theorem whole11 (c : Dev nD) (t : Fin cfg0.N) : (iblk m c 11 t : S1x768.Idx → EReal) = V m c main_arg12 := by
  obtain ⟨z3_0, z3_1, z4_0, z5_0, z5_1, z6_0, z7_0, z7_1, z8_0, z9_0, z9_1, z10_0, z11_0, z11_1, z12_0, z13_0, z13_1, z14_0⟩ := whole_facts t
  funext j
  show V m c main_arg12 (((cfg0.win 11).blk t).view.emb j) = V m c main_arg12 j
  refine congrArg (V m c main_arg12) (funext fun a => Fin.ext ?_)
  match a with
  | ⟨0, _⟩ => show win0_11.index t (0 : Fin 2) * 1 + 1 * (j 0).val = (j 0).val; omega
  | ⟨1, _⟩ => show win0_11.index t (1 : Fin 2) * 768 + 1 * (j 1).val = (j 1).val; omega

/-- Window 12's block is its whole array at every grid point. -/
theorem whole12 (c : Dev nD) (t : Fin cfg0.N) : (iblk m c 12 t : S1.Idx → EReal) = V m c main_arg13 := by
  obtain ⟨z3_0, z3_1, z4_0, z5_0, z5_1, z6_0, z7_0, z7_1, z8_0, z9_0, z9_1, z10_0, z11_0, z11_1, z12_0, z13_0, z13_1, z14_0⟩ := whole_facts t
  funext j
  show V m c main_arg13 (((cfg0.win 12).blk t).view.emb j) = V m c main_arg13 j
  refine congrArg (V m c main_arg13) (funext fun a => Fin.ext ?_)
  match a with
  | ⟨0, _⟩ => show win0_12.index t (0 : Fin 1) * 1 + 1 * (j 0).val = (j 0).val; omega

/-- Window 13's block is its whole array at every grid point. -/
theorem whole13 (c : Dev nD) (t : Fin cfg0.N) : (iblk m c 13 t : S1x768.Idx → EReal) = V m c main_arg14 := by
  obtain ⟨z3_0, z3_1, z4_0, z5_0, z5_1, z6_0, z7_0, z7_1, z8_0, z9_0, z9_1, z10_0, z11_0, z11_1, z12_0, z13_0, z13_1, z14_0⟩ := whole_facts t
  funext j
  show V m c main_arg14 (((cfg0.win 13).blk t).view.emb j) = V m c main_arg14 j
  refine congrArg (V m c main_arg14) (funext fun a => Fin.ext ?_)
  match a with
  | ⟨0, _⟩ => show win0_13.index t (0 : Fin 2) * 1 + 1 * (j 0).val = (j 0).val; omega
  | ⟨1, _⟩ => show win0_13.index t (1 : Fin 2) * 768 + 1 * (j 1).val = (j 1).val; omega

/-- Window 14's block is its whole array at every grid point. -/
theorem whole14 (c : Dev nD) (t : Fin cfg0.N) : (iblk m c 14 t : S1.Idx → EReal) = V m c main_arg15 := by
  obtain ⟨z3_0, z3_1, z4_0, z5_0, z5_1, z6_0, z7_0, z7_1, z8_0, z9_0, z9_1, z10_0, z11_0, z11_1, z12_0, z13_0, z13_1, z14_0⟩ := whole_facts t
  funext j
  show V m c main_arg15 (((cfg0.win 14).blk t).view.emb j) = V m c main_arg15 j
  refine congrArg (V m c main_arg15) (funext fun a => Fin.ext ?_)
  match a with
  | ⟨0, _⟩ => show win0_14.index t (0 : Fin 1) * 1 + 1 * (j 0).val = (j 0).val; omega

/-! ## What a grid point writes back -/

/-- The result array as the specification of the arrays the region finds. -/
abbrev spec (c : Dev nD) : S131072x768.Idx → EReal :=
  fused (R := 131072) (V m c main_v1) (V m c main_v3) (V m c main_v5) (V m c main_v6) (V m c main_arg5) (V m c main_v7) (V m c main_arg7) (V m c main_v8) (V m c main_arg9) (V m c main_arg10) (V m c main_arg11) (V m c main_arg12) (V m c main_arg13) (V m c main_arg14) (V m c main_arg15)

/-- Point t writes back block t of rows of the specification. -/
theorem flushed_eq (c : Dev nD) (t : Fin cfg0.N) :
    (dats m 0 c).flushed 15 t = ((cfg0.win 15).blk t).view.read (Elt Ideal) (spec m c) := by
  rw [flushed15]
  refine (congrArg ((cfg0.win 15).cut (grid0.coords t)) (out_eq (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t))).trans ?_
  obtain ⟨r0, r0', r1, r1', r2, r2', r15, r15'⟩ := row_facts t
  have ht : t.val < 128 := t.isLt
  funext y
  have hy0 : (y 0).val < 1024 := (y 0).isLt
  have hy1 : (y 1).val < 768 := (y 1).isLt
  show fusedAt (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
      ((cfg0.win 15).xinj (grid0.coords t) y 0) ((cfg0.win 15).xinj (grid0.coords t) y 1)
    = fusedAt (V m c main_v1) (V m c main_v3) (V m c main_v5) (V m c main_v6) (V m c main_arg5) (V m c main_v7) (V m c main_arg7) (V m c main_v8) (V m c main_arg9) (V m c main_arg10) (V m c main_arg11) (V m c main_arg12) (V m c main_arg13) (V m c main_arg14) (V m c main_arg15)
      ((((cfg0.win 15).blk t).view.emb y) 0) ((((cfg0.win 15).blk t).view.emb y) 1)
  refine fusedAt_rows _ _ _ _ _ _ _ _ _ _ _ _ _ _ _ _ _ _ _ _ _ _ _ _ _ _ _ _ _ _ _ _ _ _ ?_ ?_ ?_ ?_
    (whole3 m c t) (whole4 m c t) (whole5 m c t) (whole6 m c t) (whole7 m c t) (whole8 m c t) (whole9 m c t)
    (whole10 m c t) (whole11 m c t) (whole12 m c t) (whole13 m c t) (whole14 m c t)
  · show (y 1).val = win0_15.index t (1 : Fin 2) * 768 + 1 * (y 1).val
    omega
  · intro k
    show V m c main_v1 (((cfg0.win 0).blk t).view.emb (ix2 ((cfg0.win 15).xinj (grid0.coords t) y 0) k)) = V m c main_v1 _
    refine congrArg (V m c main_v1) (funext fun a => Fin.ext ?_)
    match a with
    | ⟨0, _⟩ => show win0_0.index t (0 : Fin 2) * 1024 + 1 * (y 0).val = win0_15.index t (0 : Fin 2) * 1024 + 1 * (y 0).val; omega
    | ⟨1, _⟩ => show win0_0.index t (1 : Fin 2) * 256 + 1 * k.val = k.val; omega
  · intro k
    show V m c main_v3 (((cfg0.win 1).blk t).view.emb (ix2 ((cfg0.win 15).xinj (grid0.coords t) y 0) k)) = V m c main_v3 _
    refine congrArg (V m c main_v3) (funext fun a => Fin.ext ?_)
    match a with
    | ⟨0, _⟩ => show win0_1.index t (0 : Fin 2) * 1024 + 1 * (y 0).val = win0_15.index t (0 : Fin 2) * 1024 + 1 * (y 0).val; omega
    | ⟨1, _⟩ => show win0_1.index t (1 : Fin 2) * 256 + 1 * k.val = k.val; omega
  · intro k
    show V m c main_v5 (((cfg0.win 2).blk t).view.emb (ix2 ((cfg0.win 15).xinj (grid0.coords t) y 0) k)) = V m c main_v5 _
    refine congrArg (V m c main_v5) (funext fun a => Fin.ext ?_)
    match a with
    | ⟨0, _⟩ => show win0_2.index t (0 : Fin 2) * 1024 + 1 * (y 0).val = win0_15.index t (0 : Fin 2) * 1024 + 1 * (y 0).val; omega
    | ⟨1, _⟩ => show win0_2.index t (1 : Fin 2) * 256 + 1 * k.val = k.val; omega

/-! ## The cover -/

/-- An index of the result is in point t's block iff its row is among rows 1024 t … 1024 t + 1023. -/
theorem mem_blk (t : Fin cfg0.N) (i : S131072x768.Idx) :
    i ∈ ((cfg0.win 15).blk t).view.set ↔ ∀ a : Fin 2, win0_15.index t a * S1024x768.size a ≤ (i a).val
      ∧ (i a).val < win0_15.index t a * S1024x768.size a + S1024x768.size a := by
  show i ∈ ((View.whole main_v9).slice (win0_15.rect t)).set ↔ _
  rw [View.set_slice_whole, Rect.mem_set_unit]
  exact Iff.rfl

/-- Row r of the result is written back by point r / 1024. -/
theorem cover (i : S131072x768.Idx) :
    ∃ t : Fin cfg0.N, (cfg0.win 15).flush t = true ∧ i ∈ ((cfg0.win 15).blk t).view.set := by
  have hi0 : (i 0).val < 131072 := (i 0).isLt
  have hi1 : (i 1).val < 768 := (i 1).isLt
  have ht : (i 0).val / 1024 < 128 := by omega
  obtain ⟨_, _, _, _, _, _, r15, r15'⟩ := row_facts ⟨(i 0).val / 1024, ht⟩
  refine ⟨⟨(i 0).val / 1024, ht⟩, flush0_15 _, ?_⟩
  rw [mem_blk]
  intro a
  match a with
  | ⟨0, _⟩ =>
    show win0_15.index ⟨(i 0).val / 1024, ht⟩ (0 : Fin 2) * 1024 ≤ (i 0).val
      ∧ (i 0).val < win0_15.index ⟨(i 0).val / 1024, ht⟩ (0 : Fin 2) * 1024 + 1024
    have e : win0_15.index ⟨(i 0).val / 1024, ht⟩ (0 : Fin 2) = (i 0).val / 1024 := r15
    omega
  | ⟨1, _⟩ =>
    show win0_15.index ⟨(i 0).val / 1024, ht⟩ (1 : Fin 2) * 768 ≤ (i 1).val
      ∧ (i 1).val < win0_15.index ⟨(i 0).val / 1024, ht⟩ (1 : Fin 2) * 768 + 768
    omega

/-! ## The array after the run, and the run -/

/-- After the run the result array is the specification of the arrays the region finds. -/
theorem final (c : Dev nD) : (dats m 0 c).arrAt 15 cfg0.N = spec m c :=
  (dats m 0 c).arrAt_eq_of_cover 15 (spec m c) (fun t _ => flushed_eq m c t) cover

/-- The frame run with the result array named. -/
theorem run : θ_run defs (onTc (τ := τ) (main (F := Ideal))) ⟨m, fun _ => 0, ρ⟩ fun r => ∀ c : Dev nD,
      r.2.mem ((c : Thread nD τ).loc main_v9) = spec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15) :=
  (θ_run defs _ _).mono (fun r h c => ⟨(h c).1.trans (final m c), (h c).2⟩) (run_blocks m ρ)

end Cert.KernelIdeal.RowValue

end
-- ==== Proof.KernelHost.lean ====
/-
  The arrays the region finds that the host operations before it wrote: the three inputs as batch-major rows
  (transpose of the first two axes, then a reshape merging them), and the three square weight matrices transposed.
-/
import proofs.«110243_j28097676051279_1_alg».proof.Proof.Gen.KernelIdeal.Frame
import Idealize.ShloMosaic.Lib.StableHlo.Run
import Idealize.ShloMosaic.PureOps.Ideal

noncomputable section

namespace Cert.KernelIdeal.HostPart

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

/-- The batch-major rows of argument 0: its first two axes exchanged, then the first two merged. -/
theorem V_v1 (c : Dev nD) : (V m c main_v1 : S131072x256.Idx → EReal)
    = shapeCast S131072x256 (transpose S128x1024x256 [1, 0, 2] (m ((c : Thread nD τ).loc main_arg0))
        transposes_S1024x128x256_S128x1024x256_1_0_2) shapeCasts_S128x1024x256_S131072x256 := by
  dsimp only [V, hostOps0]; after_results; rfl

/-- The batch-major rows of argument 1: its first two axes exchanged, then the first two merged. -/
theorem V_v3 (c : Dev nD) : (V m c main_v3 : S131072x256.Idx → EReal)
    = shapeCast S131072x256 (transpose S128x1024x256 [1, 0, 2] (m ((c : Thread nD τ).loc main_arg1))
        transposes_S1024x128x256_S128x1024x256_1_0_2) shapeCasts_S128x1024x256_S131072x256 := by
  dsimp only [V, hostOps0]; after_results; rfl

/-- The batch-major rows of argument 2: its first two axes exchanged, then the first two merged. -/
theorem V_v5 (c : Dev nD) : (V m c main_v5 : S131072x256.Idx → EReal)
    = shapeCast S131072x256 (transpose S128x1024x256 [1, 0, 2] (m ((c : Thread nD τ).loc main_arg2))
        transposes_S1024x128x256_S128x1024x256_1_0_2) shapeCasts_S128x1024x256_S131072x256 := by
  dsimp only [V, hostOps0]; after_results; rfl

/-- The transpose of the square weights, argument 4. -/
theorem V_v6 (c : Dev nD) : (V m c main_v6 : S256x256.Idx → EReal)
    = transpose S256x256 [1, 0] (m ((c : Thread nD τ).loc main_arg4)) transposes_S256x256_S256x256_1_0 := by
  dsimp only [V, hostOps0]; after_results

/-- The transpose of the square weights, argument 6. -/
theorem V_v7 (c : Dev nD) : (V m c main_v7 : S256x256.Idx → EReal)
    = transpose S256x256 [1, 0] (m ((c : Thread nD τ).loc main_arg6)) transposes_S256x256_S256x256_1_0 := by
  dsimp only [V, hostOps0]; after_results

/-- The transpose of the square weights, argument 8. -/
theorem V_v8 (c : Dev nD) : (V m c main_v8 : S256x256.Idx → EReal)
    = transpose S256x256 [1, 0] (m ((c : Thread nD τ).loc main_arg8)) transposes_S256x256_S256x256_1_0 := by
  dsimp only [V, hostOps0]; after_results

end Cert.KernelIdeal.HostPart

end
-- ==== Proof.RefValue.lean ====
/-
  The reference's result, read at an index, is the specification at 131072 rows.

  A hidden value is tanh of the host's product (the plain sum over k) plus the bias broadcast to every row.  A gate's
  argument is the 768-wide product of the concatenation cat(x, y, x·y) with the transposed weight row, plus the bias:
  the sum over 768 positions splits into its three thirds, and in the s-th third the concatenation reads its s-th
  operand.  The sigmoid is spelt 1 / (1 + exp (−t)), which is the logistic function on the extended reals.  The result
  is the concatenation of the three gate-mixed pairs, block c / 256 read at column c mod 256.
  The batch-major rows n = reshape (transpose ·) and the transposed square weights are left as they are printed: both
  programs form them by the same operations.
-/
import proofs.«110243_j28097676051279_1_alg».proof.Proof.Gen.ReferenceIdeal.Read
import proofs.«110243_j28097676051279_1_alg».proof.Proof.Spec
import proofs.«110243_j28097676051279_1_alg».proof.Proof.LibPlainDot
import Idealize.ShloMosaic.Lib.ValueLayout
import Idealize.ShloMosaic.Lib.Pipeline.Value

noncomputable section

namespace Cert.ReferenceIdeal.RefValue

open Idealize.ShloMosaic Idealize.ShloMosaic.ValueIdx Cert.ReferenceIdeal Cert.ReferenceIdeal.Gen Cert.ReferenceIdeal.Read Cert.Fusion

/-! ## A hidden value -/

/-- A bias vector broadcast to one row and then to every row reads b[d]. -/
theorem bias_apply (b : FVec Ideal S256 .f32) (r : Fin 131072) (d : Fin 256) :
    broadcastInDim S131072x256 ![0, 1] bcast_S1x256_S131072x256_0_1 (broadcastInDim S1x256 ![1] bcast_S256_S1x256_1 b) (ix2 r d)
      = b (ix1 d) := by
  refine (broadcastInDim_apply _ bcast_S1x256_S131072x256_0_1 _ (ix2 r d) (ix2 (0 : Fin 1) d) fun a => ?_).trans
    (broadcastInDim_apply _ bcast_S256_S1x256_1 b (ix2 (0 : Fin 1) d) (ix1 d) fun a => ?_)
  · match a with
    | ⟨0, _⟩ => show 0 = if (1 : Nat) = 1 then 0 else r.val; rw [if_pos rfl]
    | ⟨1, _⟩ => show d.val = if (256 : Nat) = 1 then 0 else d.val; rw [if_neg (by decide)]
  · match a with
    | ⟨0, _⟩ => show d.val = if (256 : Nat) = 1 then 0 else d.val; rw [if_neg (by decide)]

/-- tanh (n · wT + b) at (r, d). -/
theorem hidden_apply (n : FVec Ideal S131072x256 .f32) (wT : FVec Ideal S256x256 .f32) (b : FVec Ideal S256 .f32)
    (r : Fin 131072) (d : Fin 256) :
    Host.tanh (addf (Host.dotGeneral dot_S131072x256_S256x256_S131072x256_1_0_0_1_n_n none n wT)
      (broadcastInDim S131072x256 ![0, 1] bcast_S1x256_S131072x256_0_1 (broadcastInDim S1x256 ![1] bcast_S256_S1x256_1 b))) (ix2 r d)
    = hiddenAt (R := 131072) n wT b r d := by
  unfold hiddenAt
  refine congrArg Ideal.tanh (congrArg₂ (· + ·) ?_ (bias_apply b r d))
  exact plain_dotGeneral_apply (M := 131072) (K := 256) (N := 256) none .single n wT (ix2 r d)

/-! ## A concatenation of three 256-column arrays, read in each third -/

theorem cat_at0 (y0 y1 y2 : FVec Ideal S131072x256 .f32) (r : Fin 131072) (d : Fin 256) (c : Fin 768) (hc : c.val = 0 + d.val) :
    concatenate S131072x768 1 [⟨S131072x256, y0⟩, ⟨S131072x256, y1⟩, ⟨S131072x256, y2⟩]
      concatenates_S131072x256_S131072x256_S131072x256_S131072x768_d1 (ix2 r c) = y0 (ix2 r d) :=
  concatenate_apply_piece (t := S131072x768) 1 _ _ (ix2 r c) 0 (by show (0 : ℕ) < 3; omega) S131072x256 y0 rfl rfl 0 rfl (ix2 r d)
    (fun b hb => by match b with | ⟨0, _⟩ => rfl | ⟨1, _⟩ => exact absurd rfl hb)
    (by show 0 + d.val = c.val; omega)

theorem cat_at1 (y0 y1 y2 : FVec Ideal S131072x256 .f32) (r : Fin 131072) (d : Fin 256) (c : Fin 768) (hc : c.val = 256 + d.val) :
    concatenate S131072x768 1 [⟨S131072x256, y0⟩, ⟨S131072x256, y1⟩, ⟨S131072x256, y2⟩]
      concatenates_S131072x256_S131072x256_S131072x256_S131072x768_d1 (ix2 r c) = y1 (ix2 r d) :=
  concatenate_apply_piece (t := S131072x768) 1 _ _ (ix2 r c) 1 (by show (1 : ℕ) < 3; omega) S131072x256 y1 rfl rfl 256 rfl (ix2 r d)
    (fun b hb => by match b with | ⟨0, _⟩ => rfl | ⟨1, _⟩ => exact absurd rfl hb)
    (by show 256 + d.val = c.val; omega)

theorem cat_at2 (y0 y1 y2 : FVec Ideal S131072x256 .f32) (r : Fin 131072) (d : Fin 256) (c : Fin 768) (hc : c.val = 512 + d.val) :
    concatenate S131072x768 1 [⟨S131072x256, y0⟩, ⟨S131072x256, y1⟩, ⟨S131072x256, y2⟩]
      concatenates_S131072x256_S131072x256_S131072x256_S131072x768_d1 (ix2 r c) = y2 (ix2 r d) :=
  concatenate_apply_piece (t := S131072x768) 1 _ _ (ix2 r c) 2 (by show (2 : ℕ) < 3; omega) S131072x256 y2 rfl rfl 512 rfl (ix2 r d)
    (fun b hb => by match b with | ⟨0, _⟩ => rfl | ⟨1, _⟩ => exact absurd rfl hb)
    (by show 512 + d.val = c.val; omega)

/-! ## A gate's argument -/

/-- A gate's bias, one number broadcast to 1 x 1 and then to a column. -/
theorem gbias_apply (b : FVec Ideal S1 .f32) (r : Fin 131072) :
    broadcastInDim S131072x1 ![0, 1] bcast_S1x1_S131072x1_0_1 (broadcastInDim S1x1 ![1] bcast_S1_S1x1_1 b) (ix2 r (0 : Fin 1))
      = b (ix1 (0 : Fin 1)) := by
  refine (broadcastInDim_apply _ bcast_S1x1_S131072x1_0_1 _ (ix2 r (0 : Fin 1)) (ix2 (0 : Fin 1) (0 : Fin 1)) fun a => ?_).trans
    (broadcastInDim_apply _ bcast_S1_S1x1_1 b (ix2 (0 : Fin 1) (0 : Fin 1)) (ix1 (0 : Fin 1)) fun a => ?_)
  · match a with
    | ⟨0, _⟩ => show 0 = if (1 : Nat) = 1 then 0 else r.val; rw [if_pos rfl]
    | ⟨1, _⟩ => show 0 = if (1 : Nat) = 1 then 0 else 0; rw [if_pos rfl]
  · match a with
    | ⟨0, _⟩ => show 0 = if (1 : Nat) = 1 then 0 else 0; rw [if_pos rfl]

/-- The 768-wide product with the concatenation, plus the bias: the three thirds. -/
theorem logit_apply (x y : FVec Ideal S131072x256 .f32) (w : FVec Ideal S1x768 .f32) (b : FVec Ideal S1 .f32) (r : Fin 131072) :
    addf (Host.dotGeneral dot_S131072x768_S768x1_S131072x1_1_0_0_1_n_n none
        (concatenate S131072x768 1 [⟨S131072x256, x⟩, ⟨S131072x256, y⟩, ⟨S131072x256, mulf x y⟩]
          concatenates_S131072x256_S131072x256_S131072x256_S131072x768_d1)
        (transpose S768x1 [1, 0] w transposes_S1x768_S768x1_1_0))
      (broadcastInDim S131072x1 ![0, 1] bcast_S1x1_S131072x1_0_1 (broadcastInDim S1x1 ![1] bcast_S1_S1x1_1 b)) (ix2 r (0 : Fin 1))
    = logit (R := 131072) x y w b r := by
  unfold logit
  refine congrArg₂ (· + ·) ?_ (gbias_apply b r)
  refine (plain_dotGeneral_apply (M := 131072) (K := 768) (N := 1) none .single _ _ (ix2 r (0 : Fin 1))).trans ?_
  refine (sum_thirds _).trans ?_
  refine congrArg₂ (· + ·) (congrArg₂ (· + ·) ?_ ?_) ?_
  · exact Finset.sum_congr rfl fun k _ => congrArg₂ (· * ·) (cat_at0 x y (mulf x y) r k _ rfl)
      (transpose_ix2_apply w transposes_S1x768_S768x1_1_0 _ _)
  · exact Finset.sum_congr rfl fun k _ => congrArg₂ (· * ·) (cat_at1 x y (mulf x y) r k _ rfl)
      (transpose_ix2_apply w transposes_S1x768_S768x1_1_0 _ _)
  · exact Finset.sum_congr rfl fun k _ => congrArg₂ (· * ·) (cat_at2 x y (mulf x y) r k _ rfl)
      (transpose_ix2_apply w transposes_S1x768_S768x1_1_0 _ _)

/-! ## The sigmoid and the mixing -/

/-- The constant one broadcast to a column. -/
theorem one_apply (j : S131072x1.Idx) :
    broadcastInDim S131072x1 ![] bcast_S_S131072x1 (constant (F := Ideal) S_ .f32 0x3F800000#32) j = one :=
  broadcastInDim_apply _ bcast_S_S131072x1 _ j ix0 (fun a => a.elim0)

/-- 1 / (1 + exp (−s)) is the logistic function of s. -/
theorem sig_apply (s : FVec Ideal S131072x1 .f32) (j : S131072x1.Idx) :
    Host.divf (broadcastInDim S131072x1 ![] bcast_S_S131072x1 (constant (F := Ideal) S_ .f32 0x3F800000#32))
      (addf (broadcastInDim S131072x1 ![] bcast_S_S131072x1 (constant (F := Ideal) S_ .f32 0x3F800000#32)) (Host.exp (Host.negf s))) j
    = Ideal.logistic (s j) := by
  show Ideal.div (broadcastInDim S131072x1 ![] bcast_S_S131072x1 (constant (F := Ideal) S_ .f32 0x3F800000#32) j)
      (broadcastInDim S131072x1 ![] bcast_S_S131072x1 (constant (F := Ideal) S_ .f32 0x3F800000#32) j + Ideal.exp (-(s j))) = _
  rw [one_apply]
  exact sigmoid_expansion (s j)

/-- A column broadcast across the 256 columns reads its row. -/
theorem col_apply (z : FVec Ideal S131072x1 .f32) (r : Fin 131072) (d : Fin 256) :
    broadcastInDim S131072x256 ![0, 1] bcast_S131072x1_S131072x256_0_1 z (ix2 r d) = z (ix2 r (0 : Fin 1)) :=
  broadcastInDim_apply _ bcast_S131072x1_S131072x256_0_1 z (ix2 r d) (ix2 r (0 : Fin 1)) fun a => by
    match a with
    | ⟨0, _⟩ => show r.val = if (131072 : Nat) = 1 then 0 else r.val; rw [if_neg (by decide)]
    | ⟨1, _⟩ => show 0 = if (1 : Nat) = 1 then 0 else d.val; rw [if_pos rfl]

/-- One gate-mixed pair at (r, d): z · h + (1 − z) · h' with z the sigmoid of the gate's argument s. -/
theorem mix_apply (s : FVec Ideal S131072x1 .f32) (h h' : FVec Ideal S131072x256 .f32) (r : Fin 131072) (d : Fin 256) :
    addf
      (mulf (broadcastInDim S131072x256 ![0, 1] bcast_S131072x1_S131072x256_0_1
        (Host.divf (broadcastInDim S131072x1 ![] bcast_S_S131072x1 (constant (F := Ideal) S_ .f32 0x3F800000#32))
          (addf (broadcastInDim S131072x1 ![] bcast_S_S131072x1 (constant (F := Ideal) S_ .f32 0x3F800000#32)) (Host.exp (Host.negf s))))) h)
      (mulf (broadcastInDim S131072x256 ![0, 1] bcast_S131072x1_S131072x256_0_1
        (subf (broadcastInDim S131072x1 ![] bcast_S_S131072x1 (constant (F := Ideal) S_ .f32 0x3F800000#32))
          (Host.divf (broadcastInDim S131072x1 ![] bcast_S_S131072x1 (constant (F := Ideal) S_ .f32 0x3F800000#32))
            (addf (broadcastInDim S131072x1 ![] bcast_S_S131072x1 (constant (F := Ideal) S_ .f32 0x3F800000#32)) (Host.exp (Host.negf s)))))) h')
      (ix2 r d)
    = gated (Ideal.logistic (s (ix2 r (0 : Fin 1)))) (h (ix2 r d)) (h' (ix2 r d)) := by
  unfold gated
  refine congrArg₂ (· + ·) (congrArg₂ (· * ·) ((col_apply _ r d).trans (sig_apply s _)) rfl)
    (congrArg₂ (· * ·) ((col_apply _ r d).trans ?_) rfl)
  exact congrArg₂ (· - ·) (one_apply _) (sig_apply s _)

/-! ## The three pairs and the result -/

variable (x0 x1 x2 : (⟨S1024x128x256, .f32⟩ : BufTy).Contents (Elt Ideal))
  (x4 x6 x8 : (⟨S256x256, .f32⟩ : BufTy).Contents (Elt Ideal)) (x5 x7 x9 : (⟨S256, .f32⟩ : BufTy).Contents (Elt Ideal))
  (x10 x12 x14 : (⟨S1x768, .f32⟩ : BufTy).Contents (Elt Ideal)) (x11 x13 x15 : (⟨S1, .f32⟩ : BufTy).Contents (Elt Ideal))

theorem h_a (r : Fin 131072) (d : Fin 256) :
    val_main_v11 (F := Ideal) x0 x4 x5 (ix2 r d) = hiddenAt (R := 131072) (val_main_v1 x0) (val_main_v6 x4) x5 r d :=
  hidden_apply (val_main_v1 x0) (val_main_v6 x4) x5 r d

theorem h_v (r : Fin 131072) (d : Fin 256) :
    val_main_v17 (F := Ideal) x1 x6 x7 (ix2 r d) = hiddenAt (R := 131072) (val_main_v3 x1) (val_main_v12 x6) x7 r d :=
  hidden_apply (val_main_v3 x1) (val_main_v12 x6) x7 r d

theorem h_l (r : Fin 131072) (d : Fin 256) :
    val_main_v23 (F := Ideal) x2 x8 x9 (ix2 r d) = hiddenAt (R := 131072) (val_main_v5 x2) (val_main_v18 x8) x9 r d :=
  hidden_apply (val_main_v5 x2) (val_main_v18 x8) x9 r d

/-- The pair (a, v). -/
theorem pair_av (r : Fin 131072) (d : Fin 256) :
    val_main_v43 (F := Ideal) x0 x1 x4 x5 x6 x7 x10 x11 (ix2 r d)
      = pairAt (R := 131072) (val_main_v1 x0) (val_main_v3 x1) x10 x11
          (hiddenAt (val_main_v1 x0) (val_main_v6 x4) x5) (hiddenAt (val_main_v3 x1) (val_main_v12 x6) x7) r d := by
  unfold pairAt
  refine (mix_apply (val_main_v30 (F := Ideal) x0 x1 x10 x11) (val_main_v11 x0 x4 x5) (val_main_v17 x1 x6 x7) r d).trans ?_
  rw [h_a, h_v]
  exact congrArg (fun z => gated (Ideal.logistic z) _ _) (logit_apply (val_main_v1 x0) (val_main_v3 x1) x10 x11 r)

/-- The pair (a, l). -/
theorem pair_al (r : Fin 131072) (d : Fin 256) :
    val_main_v63 (F := Ideal) x0 x2 x4 x5 x8 x9 x12 x13 (ix2 r d)
      = pairAt (R := 131072) (val_main_v1 x0) (val_main_v5 x2) x12 x13
          (hiddenAt (val_main_v1 x0) (val_main_v6 x4) x5) (hiddenAt (val_main_v5 x2) (val_main_v18 x8) x9) r d := by
  unfold pairAt
  refine (mix_apply (val_main_v50 (F := Ideal) x0 x2 x12 x13) (val_main_v11 x0 x4 x5) (val_main_v23 x2 x8 x9) r d).trans ?_
  rw [h_a, h_l]
  exact congrArg (fun z => gated (Ideal.logistic z) _ _) (logit_apply (val_main_v1 x0) (val_main_v5 x2) x12 x13 r)

/-- The pair (v, l). -/
theorem pair_vl (r : Fin 131072) (d : Fin 256) :
    val_main_v83 (F := Ideal) x1 x2 x6 x7 x8 x9 x14 x15 (ix2 r d)
      = pairAt (R := 131072) (val_main_v3 x1) (val_main_v5 x2) x14 x15
          (hiddenAt (val_main_v3 x1) (val_main_v12 x6) x7) (hiddenAt (val_main_v5 x2) (val_main_v18 x8) x9) r d := by
  unfold pairAt
  refine (mix_apply (val_main_v70 (F := Ideal) x1 x2 x14 x15) (val_main_v17 x1 x6 x7) (val_main_v23 x2 x8 x9) r d).trans ?_
  rw [h_v, h_l]
  exact congrArg (fun z => gated (Ideal.logistic z) _ _) (logit_apply (val_main_v3 x1) (val_main_v5 x2) x14 x15 r)

/-- The reference's result is the specification, of the batch-major rows and the transposed weights. -/
theorem result_eq :
    val_main_v84 (F := Ideal) x0 x1 x2 x4 x5 x6 x7 x8 x9 x10 x11 x12 x13 x14 x15
      = fused (R := 131072) (val_main_v1 x0) (val_main_v3 x1) (val_main_v5 x2) (val_main_v6 x4) x5 (val_main_v12 x6) x7
          (val_main_v18 x8) x9 x10 x11 x12 x13 x14 x15 := by
  funext j
  obtain ⟨r, c, rfl⟩ : ∃ (r : Fin 131072) (c : Fin 768), j = ix2 r c := ⟨j 0, j 1, eq_ix2 j⟩
  show concatenate S131072x768 1 [⟨S131072x256, val_main_v43 (F := Ideal) x0 x1 x4 x5 x6 x7 x10 x11⟩,
        ⟨S131072x256, val_main_v63 (F := Ideal) x0 x2 x4 x5 x8 x9 x12 x13⟩, ⟨S131072x256, val_main_v83 (F := Ideal) x1 x2 x6 x7 x8 x9 x14 x15⟩]
        concatenates_S131072x256_S131072x256_S131072x256_S131072x768_d1 (ix2 r c)
      = fusedAt (val_main_v1 x0) (val_main_v3 x1) (val_main_v5 x2) (val_main_v6 x4) x5 (val_main_v12 x6) x7
          (val_main_v18 x8) x9 x10 x11 x12 x13 x14 x15 r c
  have hc := c.isLt
  by_cases h0 : c.val < 256
  · rw [cat_at0 _ _ _ r ⟨c.val, h0⟩ c (by show c.val = 0 + c.val; omega), fusedAt_block0 _ _ _ _ _ _ _ _ _ _ _ _ _ _ _ r ⟨c.val, h0⟩ c rfl]
    exact pair_av x0 x1 x4 x6 x5 x7 x10 x11 r _
  · by_cases h1 : c.val < 512
    · rw [cat_at1 _ _ _ r ⟨c.val - 256, by omega⟩ c (by show c.val = 256 + (c.val - 256); omega),
        fusedAt_block1 _ _ _ _ _ _ _ _ _ _ _ _ _ _ _ r ⟨c.val - 256, by omega⟩ c (by show c.val = 256 + (c.val - 256); omega)]
      exact pair_al x0 x2 x4 x8 x5 x9 x12 x13 r _
    · rw [cat_at2 _ _ _ r ⟨c.val - 512, by omega⟩ c (by show c.val = 512 + (c.val - 512); omega),
        fusedAt_block2 _ _ _ _ _ _ _ _ _ _ _ _ _ _ _ r ⟨c.val - 512, by omega⟩ c (by show c.val = 512 + (c.val - 512); omega)]
      exact pair_vl x1 x2 x6 x8 x7 x9 x14 x15 r _

end Cert.ReferenceIdeal.RefValue

end
-- ==== Proof.lean ====
/-
  A gated fusion of three modalities over graph nodes: for node r and each modality a hidden value
  tanh (n[r,·] · Wᵀ + b), for each pair of modalities a gate z = sigmoid (cat(x, y, x·y)[r,·] · w + bias), and the result
  row is the three mixtures z · h + (1 − z) · h' side by side.

  The kernel computes a block of 1024 rows per grid point: the products on the matrix unit (a zero accumulator, the
  operands in a narrower float format, which changes nothing on the extended reals), each gate's 768-wide product as
  three 256-wide lane sums against the three thirds of the weight row, the sigmoid as one operation, and three stores
  side by side.  The reference computes whole arrays: host products, the concatenation cat(x, y, x·y) against the
  transposed weight row, the sigmoid spelt 1 / (1 + exp (−t)), a final concatenation.
  Both are the one function `Cert.Fusion.fused` of the batch-major rows and the transposed weights (Proof/Spec.lean):
  the kernel block by block (Proof/KernelPieces, KernelBlock, KernelValue), the reference index by index
  (Proof/RefValue).  The only law joining the two is that a sum over 768 positions is the sum of its three thirds,
  which holds in any commutative monoid: the precondition (finite inputs) is not used.
  The three frames are the generated ones (the reference's is its run with the result dropped); the idealization's
  ledger is empty, so `preserves` is `True`.
-/
import proofs.«110243_j28097676051279_1_alg».proof.Defs
import proofs.«110243_j28097676051279_1_alg».proof.Proof.Gen.Kernel
import proofs.«110243_j28097676051279_1_alg».proof.Proof.Gen.Kernel.Skeleton
import proofs.«110243_j28097676051279_1_alg».proof.Proof.Gen.Kernel.Launch
import proofs.«110243_j28097676051279_1_alg».proof.Proof.Gen.Kernel.Points
import proofs.«110243_j28097676051279_1_alg».proof.Proof.Gen.Kernel.Frame
import proofs.«110243_j28097676051279_1_alg».proof.Proof.Gen.KernelIdeal
import proofs.«110243_j28097676051279_1_alg».proof.Proof.Gen.KernelIdeal.Skeleton
import proofs.«110243_j28097676051279_1_alg».proof.Proof.Gen.KernelIdeal.Launch
import proofs.«110243_j28097676051279_1_alg».proof.Proof.Gen.KernelIdeal.Points
import proofs.«110243_j28097676051279_1_alg».proof.Proof.Gen.KernelIdeal.Frame
import proofs.«110243_j28097676051279_1_alg».proof.Proof.Gen.ReferenceIdeal
import proofs.«110243_j28097676051279_1_alg».proof.Proof.Gen.Pre_finite_inputs
import proofs.«110243_j28097676051279_1_alg».proof.Proof.Gen.KernelIdeal.Value
import proofs.«110243_j28097676051279_1_alg».proof.Proof.Gen.ReferenceIdeal.Run
import proofs.«110243_j28097676051279_1_alg».proof.Proof.Gen.ReferenceIdeal.Read
import proofs.«110243_j28097676051279_1_alg».proof.Proof.KernelValue
import proofs.«110243_j28097676051279_1_alg».proof.Proof.KernelHost
import proofs.«110243_j28097676051279_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- The kernel's result array is the specification of the arrays its region finds; the reference's is the specification
    of its own batch-major rows and transposed weights; the arguments agree, and both programs form those rows and
    transposes by the same operations. -/
theorem algebraic : Cert.algebraic_KernelIdeal_ReferenceIdeal := by
  intro m ρ m' ρ' _ hagree
  refine ⟨_, Cert.KernelIdeal.RowValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, _, a4, a5, a6, a7, a8, a9, a10, a11, a12, a13, a14, a15⟩ := hagree c
  rw [Cert.ReferenceIdeal.Read.val_main_v84_eq, Cert.ReferenceIdeal.RefValue.result_eq,
    a0, a1, a2, a4, a5, a6, a7, a8, a9, a10, a11, a12, a13, a14, a15]
  unfold Cert.KernelIdeal.RowValue.spec
  rw [Cert.KernelIdeal.HostPart.V_v1, Cert.KernelIdeal.HostPart.V_v3, Cert.KernelIdeal.HostPart.V_v5,
    Cert.KernelIdeal.HostPart.V_v6, Cert.KernelIdeal.HostPart.V_v7, Cert.KernelIdeal.HostPart.V_v8,
    Cert.KernelIdeal.Gen.V_main_arg5, Cert.KernelIdeal.Gen.V_main_arg7, Cert.KernelIdeal.Gen.V_main_arg9,
    Cert.KernelIdeal.Gen.V_main_arg10, Cert.KernelIdeal.Gen.V_main_arg11, Cert.KernelIdeal.Gen.V_main_arg12,
    Cert.KernelIdeal.Gen.V_main_arg13, Cert.KernelIdeal.Gen.V_main_arg14, Cert.KernelIdeal.Gen.V_main_arg15]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
